-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩
abbrev S1x6400000 : Shape := ⟨2, ![1, 6400000]⟩
abbrev S6400000 : Shape := ⟨1, ![6400000]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  slices_S2x6400000_S1x6400000_1_0 : S2x6400000.Slices ![1, 0] S1x6400000
  shapeCasts_S1x6400000_S6400000 : S1x6400000.ShapeCasts S6400000
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg1 : IVec S2x6400000 32) (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : IVec S1x6400000 32 := (extractStridedSlice S1x6400000 ![1, 0] · slices_S2x6400000_S1x6400000_1_0) main_arg1
  let main_v25 : IVec S6400000 32 := shapeCast S6400000 main_v24 shapeCasts_S1x6400000_S6400000
  let main_c_8 : IVec S_ 32 := constantI S_ 32 0#32
  let main_v26 : IVec S6400000 32 := broadcastInDim S6400000 ![] bcast_S_S6400000 main_c_8
  let main_v27 : IVec S6400000 1 := cmpi .sge main_v25 main_v26
  let main_c_9 : IVec S_ 1 := constantI S_ 1 1#1
  let main_v28 : IVec S_ 1 := (fun x v => Host.reduce IntOp.andi x v reducesTo_S6400000_S_d0 h_S_) main_v27 main_c_9
  let main_v29 : IVec S_ 1 := andi main_v23 main_v28
  main_v29

def fn {F : FTy → Type} [FloatOps F] (main_arg0 : FVec F S200000x128 .f32) (main_arg1 : IVec S2x6400000 32) (main_arg2 : FVec F S128x16 .f32) (main_arg3 : FVec F S16 .f32) (main_arg4 : FVec F S16x2 .f32) (main_arg5 : FVec F S2 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg1 main_arg5 main_v13 main_v16
-- ==== Kernel.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S200000x16 : Shape := ⟨2, ![200000, 16]⟩
abbrev S10000x128 : Shape := ⟨2, ![10000, 128]⟩
abbrev S10000x16 : Shape := ⟨2, ![10000, 16]⟩
abbrev S200000x1 : Shape := ⟨2, ![200000, 1]⟩
abbrev S6400000x16 : Shape := ⟨2, ![6400000, 16]⟩
abbrev S1x16 : Shape := ⟨2, ![1, 16]⟩
abbrev S200000x2 : Shape := ⟨2, ![200000, 2]⟩
abbrev S10000x2 : Shape := ⟨2, ![10000, 2]⟩
abbrev S6400000x2 : Shape := ⟨2, ![6400000, 2]⟩
abbrev S1x2 : Shape := ⟨2, ![1, 2]⟩

abbrev nBuf : Space → Nat
  | .hbm => 118
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .f32⟩
  | .hbm, ⟨11, _⟩ => ⟨S200000, .f32⟩
  | .hbm, ⟨12, _⟩ => ⟨S_, .i32⟩
  | .hbm, ⟨13, _⟩ => ⟨S6400000, .i32⟩
  | .hbm, ⟨14, _⟩ => ⟨S6400000, .i1⟩
  | .hbm, ⟨15, _⟩ => ⟨S_, .i32⟩
  | .hbm, ⟨16, _⟩ => ⟨S6400000, .i32⟩
  | .hbm, ⟨17, _⟩ => ⟨S6400000, .i32⟩
  | .hbm, ⟨18, _⟩ => ⟨S6400000, .i32⟩
  | .hbm, ⟨19, _⟩ => ⟨S6400000x1, .i32⟩
  | .hbm, ⟨20, _⟩ => ⟨S_, .f32⟩
  | .hbm, ⟨21, _⟩ => ⟨S6400000, .f32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000, .f32⟩
  | .hbm, ⟨27, _⟩ => ⟨S200000x16, .f32⟩
  | .hbm, ⟨28, _⟩ => ⟨S_, .i32⟩
  | .hbm, ⟨29, _⟩ => ⟨S6400000, .i32⟩
  | .hbm, ⟨30, _⟩ => ⟨S6400000, .i1⟩
  | .hbm, ⟨31, _⟩ => ⟨S_, .i32⟩
  | .hbm, ⟨32, _⟩ => ⟨S6400000, .i32⟩
  | .hbm, ⟨33, _⟩ => ⟨S6400000, .i32⟩
  | .hbm, ⟨34, _⟩ => ⟨S6400000, .i32⟩
  | .hbm, ⟨35, _⟩ => ⟨S6400000x1, .i32⟩
  | .hbm, ⟨36, _⟩ => ⟨S6400000, .f32⟩
  | .hbm, ⟨37, _⟩ => ⟨S_, .i32⟩
  | .hbm, ⟨38, _⟩ => ⟨S6400000, .i32⟩
  | .hbm, ⟨39, _⟩ => ⟨S6400000, .i1⟩
  | .hbm, ⟨40, _⟩ => ⟨S_, .i32⟩
  | .hbm, ⟨41, _⟩ => ⟨S6400000, .i32⟩
  | .hbm, ⟨42, _⟩ => ⟨S6400000, .i32⟩
  | .hbm, ⟨43, _⟩ => ⟨S6400000, .i32⟩
  | .hbm, ⟨44, _⟩ => ⟨S6400000x1, .i32⟩
  | .hbm, ⟨45, _⟩ => ⟨S6400000, .f32⟩
  | .hbm, ⟨46, _⟩ => ⟨S6400000, .f32⟩
  | .hbm, ⟨47, _⟩ => ⟨S200000, .f32⟩
  | .hbm, ⟨48, _⟩ => ⟨S200000x1, .f32⟩
  | .hbm, ⟨49, _⟩ => ⟨S200000x16, .f32⟩
  | .hbm, ⟨50, _⟩ => ⟨S200000x16, .f32⟩
  | .hbm, ⟨51, _⟩ => ⟨S_, .i32⟩
  | .hbm, ⟨52, _⟩ => ⟨S6400000, .i32⟩
  | .hbm, ⟨53, _⟩ => ⟨S6400000, .i1⟩
  | .hbm, ⟨54, _⟩ => ⟨S_, .i32⟩
  | .hbm, ⟨55, _⟩ => ⟨S6400000, .i32⟩
  | .hbm, ⟨56, _⟩ => ⟨S6400000, .i32⟩
  | .hbm, ⟨57, _⟩ => ⟨S6400000, .i32⟩
  | .hbm, ⟨58, _⟩ => ⟨S6400000x1, .i32⟩
  | .hbm, ⟨59, _⟩ => ⟨S6400000x16, .f32⟩
  | .hbm, ⟨60, _⟩ => ⟨S6400000x1, .f32⟩
  | .hbm, ⟨61, _⟩ => ⟨S6400000x16, .f32⟩
  | .hbm, ⟨62, _⟩ => ⟨S6400000x16, .f32⟩
  | .hbm, ⟨63, _⟩ => ⟨S_, .f32⟩
  | .hbm, ⟨64, _⟩ => ⟨S200000x16, .f32⟩
  | .hbm, ⟨65, _⟩ => ⟨S6400000x1, .i32⟩
  | .hbm, ⟨66, _⟩ => ⟨S200000x16, .f32⟩
  | .hbm, ⟨67, _⟩ => ⟨S200000x16, .f32⟩
  | .hbm, ⟨68, _⟩ => ⟨S1x16, .f32⟩
  | .hbm, ⟨69, _⟩ => ⟨S200000x16, .f32⟩
  | .hbm, ⟨70, _⟩ => ⟨S200000x16, .f32⟩
  | .hbm, ⟨71, _⟩ => ⟨S_, .f32⟩
  | .hbm, ⟨72, _⟩ => ⟨S200000x16, .f32⟩
  | .hbm, ⟨73, _⟩ => ⟨S200000x16, .f32⟩
  | .hbm, ⟨74, _⟩ => ⟨S200000x2, .f32⟩
  | .hbm, ⟨75, _⟩ => ⟨S_, .i32⟩
  | .hbm, ⟨76, _⟩ => ⟨S6400000, .i32⟩
  | .hbm, ⟨77, _⟩ => ⟨S6400000, .i1⟩
  | .hbm, ⟨78, _⟩ => ⟨S_, .i32⟩
  | .hbm, ⟨79, _⟩ => ⟨S6400000, .i32⟩
  | .hbm, ⟨80, _⟩ => ⟨S6400000, .i32⟩
  | .hbm, ⟨81, _⟩ => ⟨S6400000, .i32⟩
  | .hbm, ⟨82, _⟩ => ⟨S6400000x1, .i32⟩
  | .hbm, ⟨83, _⟩ => ⟨S6400000, .f32⟩
  | .hbm, ⟨84, _⟩ => ⟨S_, .i32⟩
  | .hbm, ⟨85, _⟩ => ⟨S6400000, .i32⟩
  | .hbm, ⟨86, _⟩ => ⟨S6400000, .i1⟩
  | .hbm, ⟨87, _⟩ => ⟨S_, .i32⟩
  | .hbm, ⟨88, _⟩ => ⟨S6400000, .i32⟩
  | .hbm, ⟨89, _⟩ => ⟨S6400000, .i32⟩
  | .hbm, ⟨90, _⟩ => ⟨S6400000, .i32⟩
  | .hbm, ⟨91, _⟩ => ⟨S6400000x1, .i32⟩
  | .hbm, ⟨92, _⟩ => ⟨S6400000, .f32⟩
  | .hbm, ⟨93, _⟩ => ⟨S6400000, .f32⟩
  | .hbm, ⟨94, _⟩ => ⟨S200000, .f32⟩
  | .hbm, ⟨95, _⟩ => ⟨S200000x1, .f32⟩
  | .hbm, ⟨96, _⟩ => ⟨S200000x2, .f32⟩
  | .hbm, ⟨97, _⟩ => ⟨S200000x2, .f32⟩
  | .hbm, ⟨98, _⟩ => ⟨S_, .i32⟩
  | .hbm, ⟨99, _⟩ => ⟨S6400000, .i32⟩
  | .hbm, ⟨100, _⟩ => ⟨S6400000, .i1⟩
  | .hbm, ⟨101, _⟩ => ⟨S_, .i32⟩
  | .hbm, ⟨102, _⟩ => ⟨S6400000, .i32⟩
  | .hbm, ⟨103, _⟩ => ⟨S6400000, .i32⟩
  | .hbm, ⟨104, _⟩ => ⟨S6400000, .i32⟩
  | .hbm, ⟨105, _⟩ => ⟨S6400000x1, .i32⟩
  | .hbm, ⟨106, _⟩ => ⟨S6400000x2, .f32⟩
  | .hbm, ⟨107, _⟩ => ⟨S6400000x1, .f32⟩
  | .hbm, ⟨108, _⟩ => ⟨S6400000x2, .f32⟩
  | .hbm, ⟨109, _⟩ => ⟨S6400000x2, .f32⟩
  | .hbm, ⟨110, _⟩ => ⟨S_, .f32⟩
  | .hbm, ⟨111, _⟩ => ⟨S200000x2, .f32⟩
  | .hbm, ⟨112, _⟩ => ⟨S6400000x1, .i32⟩
  | .hbm, ⟨113, _⟩ => ⟨S200000x2, .f32⟩
  | .hbm, ⟨114, _⟩ => ⟨S200000x2, .f32⟩
  | .hbm, ⟨115, _⟩ => ⟨S1x2, .f32⟩
  | .hbm, ⟨116, _⟩ => ⟨S200000x2, .f32⟩
  | .hbm, ⟨117, _⟩ => ⟨S200000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x2, .f32⟩
  | .local _ .vmem, ⟨8, _⟩ => ⟨S10000x2, .f32⟩
  | .local _ .vmem, ⟨9, _⟩ => ⟨S10000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S200000 : S_.BroadcastsInDim S200000 (![] : Fin 0 → Fin S200000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S200000x1_S200000x2_0_1 : S200000x1.BroadcastsInDim S200000x2 (![0, 1] : Fin 2 → Fin S200000x2.rank)
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S6400000x1_S6400000_n_0_0_1_wf : ScatterDims.WF S200000 S6400000x1 S6400000 [] [0] [0] 1
  dot_S10000x128_S128x16_S10000x16_1_0_0_1_n_n_wf : DotDims.WF S10000x128 S128x16 S10000x16 [1] [0] [0] [1] [] []
  gather_S200000_S6400000x1_S6400000_n_0_n_n_0_1_1_wf : GatherDims.WF S200000 S6400000x1 S6400000 [] [0] [] [0] [] 1 ![1]
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S10000x16_S16x2_S10000x2_1_0_0_1_n_n_wf : DotDims.WF S10000x16 S16x2 S10000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S200000x2.size a
  hwx1_2 : ∀ i : grid1.Coords, EltTy.bits .f32 = 32 ∨ (Rect.block (s := S200000x2) S10000x2.size (cc1_transform_2 i) (hinb1_2 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S200000x16 : Shape := ⟨2, ![200000, 16]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x2 : Shape := ⟨2, ![200000, 2]⟩
abbrev S6600000x2 : Shape := ⟨2, ![6600000, 2]⟩
abbrev S1x2 : Shape := ⟨2, ![1, 2]⟩

abbrev nBuf : Space → Nat
  | .hbm => 123
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000x16, .f32⟩
  | .hbm, ⟨11, _⟩ => ⟨S200000, .i32⟩
  | .hbm, ⟨12, _⟩ => ⟨S6600000, .i32⟩
  | .hbm, ⟨13, _⟩ => ⟨S6600000, .i32⟩
  | .hbm, ⟨14, _⟩ => ⟨S_, .f32⟩
  | .hbm, ⟨15, _⟩ => ⟨S6600000, .f32⟩
  | .hbm, ⟨16, _⟩ => ⟨S_, .f32⟩
  | .hbm, ⟨17, _⟩ => ⟨S200000, .f32⟩
  | .hbm, ⟨18, _⟩ => ⟨S6600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S_, .i32⟩
  | .hbm, ⟨47, _⟩ => ⟨S6600000, .i32⟩
  | .hbm, ⟨48, _⟩ => ⟨S6600000, .i1⟩
  | .hbm, ⟨49, _⟩ => ⟨S_, .i32⟩
  | .hbm, ⟨50, _⟩ => ⟨S6600000, .i32⟩
  | .hbm, ⟨51, _⟩ => ⟨S6600000, .i32⟩
  | .hbm, ⟨52, _⟩ => ⟨S6600000, .i32⟩
  | .hbm, ⟨53, _⟩ => ⟨S6600000x1, .i32⟩
  | .hbm, ⟨54, _⟩ => ⟨S6600000x16, .f32⟩
  | .hbm, ⟨55, _⟩ => ⟨S6600000x1, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S200000x16, .f32⟩
  | .hbm, ⟨64, _⟩ => ⟨S200000x16, .f32⟩
  | .hbm, ⟨65, _⟩ => ⟨S_, .f32⟩
  | .hbm, ⟨66, _⟩ => ⟨S200000x16, .f32⟩
  | .hbm, ⟨67, _⟩ => ⟨S200000x16, .f32⟩
  | .hbm, ⟨68, _⟩ => ⟨S200000x2, .f32⟩
  | .hbm, ⟨69, _⟩ => ⟨S200000, .i32⟩
  | .hbm, ⟨70, _⟩ => ⟨S6600000, .i32⟩
  | .hbm, ⟨71, _⟩ => ⟨S6600000, .i32⟩
  | .hbm, ⟨72, _⟩ => ⟨S_, .f32⟩
  | .hbm, ⟨73, _⟩ => ⟨S6600000, .f32⟩
  | .hbm, ⟨74, _⟩ => ⟨S_, .f32⟩
  | .hbm, ⟨75, _⟩ => ⟨S200000, .f32⟩
  | .hbm, ⟨76, _⟩ => ⟨S6600000x1, .i32⟩
  | .hbm, ⟨77, _⟩ => ⟨S200000, .f32⟩
  | .hbm, ⟨78, _⟩ => ⟨S_, .f32⟩
  | .hbm, ⟨79, _⟩ => ⟨S200000, .f32⟩
  | .hbm, ⟨80, _⟩ => ⟨S200000, .i1⟩
  | .hbm, ⟨81, _⟩ => ⟨S200000, .f32⟩
  | .hbm, ⟨82, _⟩ => ⟨S_, .f32⟩
  | .hbm, ⟨83, _⟩ => ⟨S200000, .f32⟩
  | .hbm, ⟨84, _⟩ => ⟨S200000, .f32⟩
  | .hbm, ⟨85, _⟩ => ⟨S_, .i32⟩
  | .hbm, ⟨86, _⟩ => ⟨S6600000, .i32⟩
  | .hbm, ⟨87, _⟩ => ⟨S6600000, .i1⟩
  | .hbm, ⟨88, _⟩ => ⟨S_, .i32⟩
  | .hbm, ⟨89, _⟩ => ⟨S6600000, .i32⟩
  | .hbm, ⟨90, _⟩ => ⟨S6600000, .i32⟩
  | .hbm, ⟨91, _⟩ => ⟨S6600000, .i32⟩
  | .hbm, ⟨92, _⟩ => ⟨S6600000x1, .i32⟩
  | .hbm, ⟨93, _⟩ => ⟨S6600000, .f32⟩
  | .hbm, ⟨94, _⟩ => ⟨S_, .i32⟩
  | .hbm, ⟨95, _⟩ => ⟨S6600000, .i32⟩
  | .hbm, ⟨96, _⟩ => ⟨S6600000, .i1⟩
  | .hbm, ⟨97, _⟩ => ⟨S_, .i32⟩
  | .hbm, ⟨98, _⟩ => ⟨S6600000, .i32⟩
  | .hbm, ⟨99, _⟩ => ⟨S6600000, .i32⟩
  | .hbm, ⟨100, _⟩ => ⟨S6600000, .i32⟩
  | .hbm, ⟨101, _⟩ => ⟨S6600000x1, .i32⟩
  | .hbm, ⟨102, _⟩ => ⟨S6600000, .f32⟩
  | .hbm, ⟨103, _⟩ => ⟨S6600000, .f32⟩
  | .hbm, ⟨104, _⟩ => ⟨S_, .i32⟩
  | .hbm, ⟨105, _⟩ => ⟨S6600000, .i32⟩
  | .hbm, ⟨106, _⟩ => ⟨S6600000, .i1⟩
  | .hbm, ⟨107, _⟩ => ⟨S_, .i32⟩
  | .hbm, ⟨108, _⟩ => ⟨S6600000, .i32⟩
  | .hbm, ⟨109, _⟩ => ⟨S6600000, .i32⟩
  | .hbm, ⟨110, _⟩ => ⟨S6600000, .i32⟩
  | .hbm, ⟨111, _⟩ => ⟨S6600000x1, .i32⟩
  | .hbm, ⟨112, _⟩ => ⟨S6600000x2, .f32⟩
  | .hbm, ⟨113, _⟩ => ⟨S6600000x1, .f32⟩
  | .hbm, ⟨114, _⟩ => ⟨S6600000x2, .f32⟩
  | .hbm, ⟨115, _⟩ => ⟨S6600000x2, .f32⟩
  | .hbm, ⟨116, _⟩ => ⟨S_, .f32⟩
  | .hbm, ⟨117, _⟩ => ⟨S200000x2, .f32⟩
  | .hbm, ⟨118, _⟩ => ⟨S6600000x1, .i32⟩
  | .hbm, ⟨119, _⟩ => ⟨S200000x2, .f32⟩
  | .hbm, ⟨120, _⟩ => ⟨S1x2, .f32⟩
  | .hbm, ⟨121, _⟩ => ⟨S200000x2, .f32⟩
  | .hbm, ⟨122, _⟩ => ⟨S200000x2, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S200000x128_S128x16_S200000x16_1_0_0_1_n_n_wf : DotDims.WF S200000x128 S128x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x2_S200000x2_1_0_0_1_n_n_wf : DotDims.WF S200000x16 S16x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x2_S200000x2_1_0_0_1_n_n : DotDims S200000x16 S16x2 S200000x2 where
  lhsContracting := [1]
  rhsContracting := [0]
  lhsNonContracting := [0]
  rhsNonContracting := [1]
  lhsBatch := []
  rhsBatch := []
  wf := dot_S200000x16_S16x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

class Facts : Prop extends Facts₀ where

variable [Facts]
-- ==== Proof.KTerms.lean ====
import proofs.«121461_j37426345017679_1_alg».proof.KernelIdeal

/-! # The host stretches of the kernel's program as whole-array functions

Between and around its two matrix products the program computes, with host operations on whole arrays: the source and
destination words of the edges (`src`, `dst`: the two rows of the edge list); jnp's normalisation of an index vector
(`nrm`: a negative entry counts from the end) and an index vector as a column of start indices (`col`); the inverse
square root of the degrees (`dinv`: a scatter-add of ones over the normalised destinations, plus one, under
`rsqrt`); one layer's aggregation from the table `h` the matrix product left (`layer1` at 16 columns, `layer2` at 2:
gather the source rows, scale by `dinv src · dinv dst`, scatter-add into the destination rows, add the table scaled by
`dinv²`, add the bias); and the rectifier between the layers (`relu`). Each is the operations' composed term, spelt as the
program spells it, so that what a stretch leaves in a buffer IS one of these functions of what it found. -/

noncomputable section

namespace Cert.KernelIdeal.KTerms

open Cert.KernelIdeal Idealize.ShloMosaic

variable {F : FTy → Type} [FloatOps F]
variable [Cert.KernelIdeal.Facts]
open Cert.KernelIdeal.Facts₀ Cert.KernelIdeal.Facts

/-- The edges' source words: row 0 of the edge list. -/
def src (ei : IVec S2x6400000 32) : IVec S6400000 32 :=
  shapeCast _ (extractStridedSlice S1x6400000 ![0, 0] ei slices_S2x6400000_S1x6400000_0_0) shapeCasts_S1x6400000_S6400000

/-- The edges' destination words: row 1 of the edge list. -/
def dst (ei : IVec S2x6400000 32) : IVec S6400000 32 :=
  shapeCast _ (extractStridedSlice S1x6400000 ![1, 0] ei slices_S2x6400000_S1x6400000_1_0) shapeCasts_S1x6400000_S6400000

/-- jnp's normalisation of an index vector into a table of 200000 rows. -/
def nrm (v : IVec S6400000 32) : IVec S6400000 32 :=
  select (cmpi .slt v (broadcastInDim S6400000 ![] bcast_S_S6400000 (constantI S_ 32 0#32)))
    (addi v (broadcastInDim S6400000 ![] bcast_S_S6400000 (constantI S_ 32 200000#32))) v

/-- An index vector as a column of start indices. -/
def col (v : IVec S6400000 32) : IVec S6400000x1 32 :=
  broadcastInDim S6400000x1 ![0] bcast_S6400000_S6400000x1_0 v

/-- The inverse square roots of the degrees. -/
def dinv (ei : IVec S2x6400000 32) : FVec F S200000 .f32 :=
  Host.rsqrt (addf
    (Host.scatterAdd scatter_S200000_S6400000x1_S6400000_n_0_0_1
      (broadcastInDim S200000 ![] bcast_S_S200000 (constant S_ .f32 0x00000000#32))
      (col (nrm (dst ei)))
      (broadcastInDim S6400000 ![] bcast_S_S6400000 (constant S_ .f32 0x3F800000#32)))
    (broadcastInDim S200000 ![] bcast_S_S200000 (constant S_ .f32 0x3F800000#32)))

/-- The first layer's aggregation of the table `h` (16 columns) and bias `b`. -/
def layer1 (h : FVec F S200000x16 .f32) (dv : FVec F S200000 .f32) (s d : IVec S6400000 32) (b : FVec F S16 .f32) :
    FVec F S200000x16 .f32 :=
  addf
    (addf
      (Host.scatterAdd scatter_S200000x16_S6400000x1_S6400000x16_1_0_0_1
        (broadcastInDim S200000x16 ![] bcast_S_S200000x16 (constant S_ .f32 0x00000000#32))
        (col d)
        (mulf (Host.gather gather_S200000x16_S6400000x1_S6400000x16_1_0_n_n_0_1_116 h (col (nrm s)))
          (broadcastInDim S6400000x16 ![0, 1] bcast_S6400000x1_S6400000x16_0_1
            (broadcastInDim S6400000x1 ![0] bcast_S6400000_S6400000x1_0
              (mulf (Host.gather gather_S200000_S6400000x1_S6400000_n_0_n_n_0_1_1 dv (col (nrm s)))
                (Host.gather gather_S200000_S6400000x1_S6400000_n_0_n_n_0_1_1 dv (col (nrm d))))))))
      (mulf h (broadcastInDim S200000x16 ![0, 1] bcast_S200000x1_S200000x16_0_1
        (broadcastInDim S200000x1 ![0] bcast_S200000_S200000x1_0 (mulf dv dv)))))
    (broadcastInDim S200000x16 ![0, 1] bcast_S1x16_S200000x16_0_1 (broadcastInDim S1x16 ![1] bcast_S16_S1x16_1 b))

/-- The rectifier between the layers. -/
def relu (x : FVec F S200000x16 .f32) : FVec F S200000x16 .f32 :=
  maximumf x (broadcastInDim S200000x16 ![] bcast_S_S200000x16 (constant S_ .f32 0x00000000#32))

/-- The second layer's aggregation of the table `h` (2 columns) and bias `b`. -/
def layer2 (h : FVec F S200000x2 .f32) (dv : FVec F S200000 .f32) (s d : IVec S6400000 32) (b : FVec F S2 .f32) :
    FVec F S200000x2 .f32 :=
  addf
    (addf
      (Host.scatterAdd scatter_S200000x2_S6400000x1_S6400000x2_1_0_0_1
        (broadcastInDim S200000x2 ![] bcast_S_S200000x2 (constant S_ .f32 0x00000000#32))
        (col d)
        (mulf (Host.gather gather_S200000x2_S6400000x1_S6400000x2_1_0_n_n_0_1_12 h (col (nrm s)))
          (broadcastInDim S6400000x2 ![0, 1] bcast_S6400000x1_S6400000x2_0_1
            (broadcastInDim S6400000x1 ![0] bcast_S6400000_S6400000x1_0
              (mulf (Host.gather gather_S200000_S6400000x1_S6400000_n_0_n_n_0_1_1 dv (col (nrm s)))
                (Host.gather gather_S200000_S6400000x1_S6400000_n_0_n_n_0_1_1 dv (col (nrm d))))))))
      (mulf h (broadcastInDim S200000x2 ![0, 1] bcast_S200000x1_S200000x2_0_1
        (broadcastInDim S200000x1 ![0] bcast_S200000_S200000x1_0 (mulf dv dv)))))
    (broadcastInDim S200000x2 ![0, 1] bcast_S1x2_S200000x2_0_1 (broadcastInDim S1x2 ![1] bcast_S2_S1x2_1 b))

end Cert.KernelIdeal.KTerms

end
-- ==== Proof.GcnSpec.lean ====
import Idealize.ShloMosaic.Lib.ValueIdx
import Idealize.ShloMosaic.PureOps.Ideal.Laws
import Idealize.ShloMosaic.Lib.IdealHost

/-! # Two graph-convolution layers over the extended reals, entry by entry

A graph has `N` nodes and `E` directed edges `src e → dst e`, given as 32-bit words. A node's degree is the number of
edges whose destination word, read signed, is that node, plus one for the node's own loop; `dinv` is its inverse
square root. One layer sends along every edge the source row of a table `h` scaled by `dinv src · dinv dst`, sums at
every node the messages of the edges that end there, adds the node's own row scaled by `dinv² `, and adds a bias. A
gather reads its row index jnp's way: a negative word counts from the end (`nrm`), and the result is clamped into the
table (`row`). The network is layer ∘ relu ∘ layer over two matrix products.

The second half is the same layer written over the edge list WITH the `N` loops appended as edges `i → i`
(`catw`): the sum over the `E + N` edges splits into the sum over the `E` edges and the loops' sum, and of the loops
only node `v`'s own ends at `v`. -/

noncomputable section

namespace Cert.Gcn

open Idealize.ShloMosaic
open scoped BigOperators

/-- jnp's normalisation of an index word into a table of `N` rows: a negative word counts from the end. -/
def nrm (N : Nat) (w : BitVec 32) : BitVec 32 :=
  Scalar.select (IntOp.cmpi .slt w 0#32) (IntOp.addi w (BitVec.ofNat 32 N)) w

/-- The row a gather reads for a start word: the word read signed, clamped into the table. -/
def row {N : Nat} (hN : 0 < N) (w : BitVec 32) : Fin N := ⟨min w.toInt.toNat (N - 1), by omega⟩

section Defs
variable {N E : Nat}

/-- Edges ending at node `v`, counted in the extended reals. -/
def cnt (dst : Fin E → BitVec 32) (v : Fin N) : EReal :=
  ∑ e : Fin E, if (dst e).toInt = (v.val : ℤ) then (1 : EReal) else 0

/-- The degree: the edges ending at `v` and its own loop. -/
def deg (dst : Fin E → BitVec 32) (v : Fin N) : EReal := cnt dst v + 1

def dinv (dst : Fin E → BitVec 32) (v : Fin N) : EReal := Ideal.rsqrt (deg dst v)

/-- The message of edge `e`, column `k`. -/
def msg (hN : 0 < N) {C : Nat} (src dst : Fin E → BitVec 32) (h : Fin N → Fin C → EReal) (e : Fin E) (k : Fin C) : EReal :=
  h (row hN (nrm N (src e))) k * (dinv dst (row hN (nrm N (src e))) * dinv dst (row hN (nrm N (dst e))))

/-- One layer at node `v`, column `k`. -/
def layer (hN : 0 < N) {C : Nat} (src dst : Fin E → BitVec 32) (h : Fin N → Fin C → EReal) (b : Fin C → EReal)
    (v : Fin N) (k : Fin C) : EReal :=
  ((∑ e : Fin E, if (dst e).toInt = (v.val : ℤ) then msg hN src dst h e k else 0) + h v k * (dinv dst v * dinv dst v)) + b k

/-- A matrix product, entry by entry. -/
def mm {K C : Nat} (x : Fin N → Fin K → EReal) (w : Fin K → Fin C → EReal) (v : Fin N) (k : Fin C) : EReal :=
  ∑ j : Fin K, x v j * w j k

def relu (x : EReal) : EReal := max x 0

/-- The two-layer network. -/
def out (hN : 0 < N) {K H C : Nat} (src dst : Fin E → BitVec 32) (x : Fin N → Fin K → EReal) (W1 : Fin K → Fin H → EReal)
    (b1 : Fin H → EReal) (W2 : Fin H → Fin C → EReal) (b2 : Fin C → EReal) : Fin N → Fin C → EReal :=
  layer hN src dst (mm (fun v j => relu (layer hN src dst (mm x W1) b1 v j)) W2) b2

end Defs

/-- A matrix product as a whole array: entry `(r, c)` is the sum over `j` of `x[r, j] · w[j, c]`. -/
def mmArr {R K C : Nat} (x : (⟨2, ![R, K]⟩ : Shape).Idx → EReal) (w : (⟨2, ![K, C]⟩ : Shape).Idx → EReal) :
    (⟨2, ![R, C]⟩ : Shape).Idx → EReal :=
  fun i => ∑ j : Fin K, x (ValueIdx.ix2 ⟨(i 0).val, ValueIdx.idx2_lt0 i⟩ j) * w (ValueIdx.ix2 j ⟨(i 1).val, ValueIdx.idx2_lt1 i⟩)

theorem mmArr_apply {R K C : Nat} (x : (⟨2, ![R, K]⟩ : Shape).Idx → EReal) (w : (⟨2, ![K, C]⟩ : Shape).Idx → EReal)
    (r : Fin R) (c : Fin C) : mmArr x w (ValueIdx.ix2 r c) = ∑ j : Fin K, x (ValueIdx.ix2 r j) * w (ValueIdx.ix2 j c) := rfl

/-! ## Words -/

theorem slt_zero_false (w : BitVec 32) (h : 0 ≤ w.toInt) : w.slt 0#32 = false := by
  rw [BitVec.slt]
  simp only [BitVec.toInt_zero, decide_eq_false_iff_not, not_lt]
  exact h

/-- A non-negative word is its own normalisation. -/
theorem nrm_of_nonneg (N : Nat) (w : BitVec 32) (h : 0 ≤ w.toInt) : nrm N w = w := by
  unfold nrm Scalar.select IntOp.cmpi
  simp only [slt_zero_false w h]
  exact if_neg (by decide)

/-- The word of a node number, read signed, is the number. -/
theorem toInt_ofNat_lt {i : Nat} (h : i < 2 ^ 31) : (BitVec.ofNat 32 i).toInt = (i : ℤ) := by
  rw [BitVec.toInt_eq_toNat_cond, BitVec.toNat_ofNat]
  have h32 : (2 : ℕ) ^ 32 = 4294967296 := by norm_num
  have h31 : (2 : ℕ) ^ 31 = 2147483648 := by norm_num
  rw [h31] at h
  rw [h32, Nat.mod_eq_of_lt (by omega)]
  rw [if_pos (by omega)]

/-- The word of a node number normalises to itself and reads that node's row. -/
theorem toInt_node {N : Nat} (hN31 : N ≤ 2 ^ 31) (i : Fin N) : (BitVec.ofNat 32 i.val).toInt = (i.val : ℤ) :=
  toInt_ofNat_lt (lt_of_lt_of_le i.isLt hN31)

theorem nrm_node {N : Nat} (hN31 : N ≤ 2 ^ 31) (i : Fin N) : nrm N (BitVec.ofNat 32 i.val) = BitVec.ofNat 32 i.val :=
  nrm_of_nonneg N _ (by rw [toInt_node hN31]; exact Int.natCast_nonneg _)

theorem row_node {N : Nat} (hN : 0 < N) (hN31 : N ≤ 2 ^ 31) (i : Fin N) : row hN (BitVec.ofNat 32 i.val) = i := by
  refine Fin.ext ?_
  show min (BitVec.ofNat 32 i.val).toInt.toNat (N - 1) = i.val
  rw [toInt_node hN31, Int.toNat_natCast]
  have := i.isLt
  omega

/-! ## The loops appended as edges -/

/-- The word list `a` of `E` edges with the node numbers `0 … N-1` appended behind it. -/
def catw (E : Nat) {M : Nat} (a : Fin E → BitVec 32) (e' : Fin M) : BitVec 32 :=
  if h : e'.val < E then a ⟨e'.val, h⟩ else BitVec.ofNat 32 (e'.val - E)

theorem catw_edge {E M : Nat} (a : Fin E → BitVec 32) (e : Fin E) (h : e.val < M) : catw E a (⟨e.val, h⟩ : Fin M) = a e := by
  unfold catw
  rw [dif_pos e.isLt]

theorem catw_loop {E M : Nat} (a : Fin E → BitVec 32) (i : Nat) (h : E + i < M) :
    catw E a (⟨E + i, h⟩ : Fin M) = BitVec.ofNat 32 i := by
  unfold catw
  rw [dif_neg (by simp), Nat.add_sub_cancel_left]

/-- A sum over the edges and the loops is the edges' sum plus the loops'. -/
theorem sum_split {A : Type*} [AddCommMonoid A] {E N M : Nat} (hM : E + N = M) (f : Fin M → A) :
    ∑ e', f e' = ∑ e : Fin E, f ⟨e.val, by omega⟩ + ∑ i : Fin N, f ⟨E + i.val, by omega⟩ := by
  subst hM
  rw [Fin.sum_univ_add]
  rfl

/-- Of the loops only node `v`'s own ends at `v`. -/
theorem sum_loop {N : Nat} (v : Fin N) (a : Fin N → EReal) :
    ∑ i : Fin N, (if (i.val : ℤ) = (v.val : ℤ) then a i else 0) = a v := by
  rw [Finset.sum_eq_single v]
  · rw [if_pos rfl]
  · intro i _ hi
    rw [if_neg]
    intro h
    exact hi (Fin.ext (by exact_mod_cast h))
  · intro h
    exact absurd (Finset.mem_univ v) h

section Ref
variable {N E M : Nat}

/-- Counting over the edges with the loops appended gives the degree. -/
theorem cnt_ref (hM : E + N = M) (hN31 : N ≤ 2 ^ 31) (dst : Fin E → BitVec 32) (v : Fin N) :
    (∑ e' : Fin M, if (catw E dst e').toInt = (v.val : ℤ) then (1 : EReal) else 0) = deg dst v := by
  rw [sum_split hM]
  unfold deg cnt
  congr 1
  · refine Finset.sum_congr rfl fun e _ => ?_
    rw [catw_edge]
  · refine (Finset.sum_congr rfl fun i _ => ?_).trans (sum_loop v (fun _ => (1 : EReal)))
    rw [catw_loop, toInt_node hN31]

/-- A degree is positive: a count and one. -/
theorem deg_pos (dst : Fin E → BitVec 32) (v : Fin N) : 0 < deg dst v := by
  unfold deg cnt
  have h0 : (0 : EReal) ≤ ∑ e : Fin E, if (dst e).toInt = (v.val : ℤ) then (1 : EReal) else 0 :=
    Finset.sum_nonneg fun e _ => by split <;> norm_num
  exact lt_of_lt_of_le zero_lt_one (le_add_of_nonneg_left h0)

/-- The layer over the edges with the loops appended, every loop an edge `i → i`, is the layer. -/
theorem layer_ref (hM : E + N = M) (hN31 : N ≤ 2 ^ 31) (hN : 0 < N) {C : Nat} (src dst : Fin E → BitVec 32)
    (h : Fin N → Fin C → EReal) (b : Fin C → EReal) (v : Fin N) (k : Fin C) :
    (∑ e' : Fin M, if (catw E dst e').toInt = (v.val : ℤ) then
        h (row hN (nrm N (catw E src e'))) k
          * (dinv dst (row hN (nrm N (catw E src e'))) * dinv dst (row hN (nrm N (catw E dst e')))) else 0) + b k
      = layer hN src dst h b v k := by
  rw [sum_split hM]
  unfold layer msg
  congr 1
  congr 1
  · refine Finset.sum_congr rfl fun e _ => ?_
    rw [catw_edge, catw_edge]
  · refine (Finset.sum_congr rfl fun i _ => ?_).trans (sum_loop v (fun i => h i k * (dinv dst i * dinv dst i)))
    rw [catw_loop, catw_loop, toInt_node hN31, nrm_node hN31, row_node hN hN31]

/-- Where every destination word is non-negative, normalising it first counts the same edges. -/
theorem cnt_nrm (dst : Fin E → BitVec 32) (hdst : ∀ e, 0 ≤ (dst e).toInt) (v : Fin N) :
    (∑ e : Fin E, if (nrm N (dst e)).toInt = (v.val : ℤ) then (1 : EReal) else 0) = cnt dst v := by
  unfold cnt
  refine Finset.sum_congr rfl fun e _ => ?_
  rw [nrm_of_nonneg N _ (hdst e)]

end Ref

end Cert.Gcn

end
-- ==== Proof.KRegions.lean ====
import proofs.«121461_j37426345017679_1_alg».proof.Proof.Gen.KernelIdeal.Frame
import proofs.«121461_j37426345017679_1_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-- The zero offsets of a whole-buffer access, as a constant function. -/
theorem zero_offsets : (![0, 0] : Fin 2 → Nat) = fun _ => 0 := funext fun a => by fin_cases a <;> rfl

/-! ## The first product: 200000 × 128 by 128 × 16, in 20 row blocks of 10000 -/

/-! ### The block product at an index -/

theorem lhs0_axis0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs0_axis1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs0_axis0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs0_axis1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The body's product of a 10000 × 128 block and the 128 × 16 weights, at row `p`, column `q`: the sum over the 128
    inner positions (the narrowing of the operands changes no value over the extended reals, and the accumulator
    starts at zero). -/
theorem block_product0 (x0 : Vec Ideal S10000x128 .f32) (x1 : Vec Ideal S128x16 .f32) (p : Fin 10000) (q : Fin 16) :
    k0_pay1 (F := Ideal) x0 x1 (ix2 p q) = ∑ k : Fin 128, x0 (ix2 p k) * x1 (ix2 k q) := by
  show FloatOps.matmul dot_S10000x128_S128x16_S10000x16_1_0_0_1_n_n none (truncf (F := Ideal) .bf16 (x0 : FVec Ideal S10000x128 .f32) bitsLt_bf16_f32)
      (truncf (F := Ideal) .bf16 (x1 : FVec Ideal S128x16 .f32) bitsLt_bf16_f32) (constant (F := Ideal) S10000x16 .f32 0x00000000#32) (ix2 p q) = _
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q) ((contrEquiv1 dot_S10000x128_S128x16_S10000x16_1_0_0_1_n_n 128 rfl rfl).symm k) = ix2 p k := funext fun a => Fin.ext (by
    match a with
    | ⟨0, _⟩ => exact lhs0_axis0 _ _
    | ⟨1, _⟩ => exact (lhs0_axis1 _ _).trans hk)
  have er : dot_S10000x128_S128x16_S10000x16_1_0_0_1_n_n.rhsIdx (ix2 p q) ((contrEquiv1 dot_S10000x128_S128x16_S10000x16_1_0_0_1_n_n 128 rfl rfl).symm k) = ix2 k q := funext fun a => Fin.ext (by
    match a with
    | ⟨0, _⟩ => exact (rhs0_axis0 _ _).trans hk
    | ⟨1, _⟩ => exact rhs0_axis1 _ _)
  rw [el, er]
  rfl

/-! ### The blocks in the arrays -/

/-- The three index maps over the 20 points: the rows' block is the point's number for the left operand and for the
    result, and every other block index is zero. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t`, row `p`: the array's row `t · 10000 + p`. -/
theorem lhs_block0 (c : Dev nD) (t : Fin cfg0.N) (p : Fin 10000) (k : Fin 128) (r : Fin 200000)
    (hr : r.val = t.val * 10000 + p.val) :
    (iblk0 (F := Ideal) V c 0 t : Vec Ideal S10000x128 .f32) (ix2 p k) = V c main_arg0 (ix2 r k) := by
  obtain ⟨e0, e1, -, -, -, -⟩ := block_indices0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The weights' block at every point: the whole array. -/
theorem rhs_block0 (c : Dev nD) (t : Fin cfg0.N) (k : Fin 128) (q : Fin 16) :
    (iblk0 (F := Ideal) V c 1 t : Vec Ideal S128x16 .f32) (ix2 k q) = V c main_arg2 (ix2 k q) := by
  obtain ⟨-, -, e2, e3, -, -⟩ := block_indices0 t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 16 + 1 * q.val = q.val; omega

/-- The result's block at point `t`, row `p`, sits in the array at row `t · 10000 + p`. -/
theorem out_block0 (t : Fin cfg0.N) (p : Fin 10000) (q : Fin 16) (r : Fin 200000) (hr : r.val = t.val * 10000 + p.val) :
    ((cfg0.win 2).blk t).view.emb (ix2 p q : S10000x16.Idx) = (ix2 r q : S200000x16.Idx) := by
  obtain ⟨-, -, -, -, e4, e5⟩ := block_indices0 t
  refine funext fun a => Fin.ext ?_
  match a with
  | ⟨0, _⟩ => show win0_2.index t (0 : Fin 2) * 10000 + 1 * p.val = r.val; omega
  | ⟨1, _⟩ => show win0_2.index t (1 : Fin 2) * 16 + 1 * q.val = q.val; omega

/-- What point `t` writes back is its block of the whole product. -/
theorem written_back0 (c : Dev nD) (t : Fin cfg0.N) :
    (dat0 (F := Ideal) V c).flushed 2 t
      = ((cfg0.win 2).blk t).view.read (Elt Ideal) (Gcn.mmArr (R := 200000) (K := 128) (C := 16) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x16) zero_offsets]
  funext j
  obtain ⟨p, q, rfl⟩ : ∃ (p : Fin 10000) (q : Fin 16), j = ix2 p q := ⟨j 0, j 1, eq_ix2 j⟩
  have ht : t.val < 20 := lt_of_lt_of_eq t.isLt N_0
  obtain ⟨r, hr⟩ : ∃ r : Fin 200000, r.val = t.val * 10000 + p.val := ⟨⟨t.val * 10000 + p.val, by have := p.isLt; omega⟩, rfl⟩
  refine (block_product0 _ _ p q).trans ?_
  refine Eq.trans ?_ (congrArg (Gcn.mmArr (R := 200000) (K := 128) (C := 16) (V c main_arg0) (V c main_arg2)) (out_block0 t p q r hr)).symm
  rw [Gcn.mmArr_apply]
  refine Finset.sum_congr rfl fun k _ => ?_
  rw [lhs_block0 V c t p k r hr, rhs_block0 V c t k q]

/-- An index of the result array is in point `t`'s block iff each coordinate is in the block's range on its axis. -/
theorem mem_block0 (t : Fin cfg0.N) (i : S200000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v16).slice (win0_2.rect t)).set ↔ _
  rw [View.set_slice_whole, Rect.mem_set_unit]
  exact Iff.rfl

/-- Every index of the result array is in the block of the point numbered by its row divided by 10000. -/
theorem covered0 (i : S200000x16.Idx) :
    ∃ t : Fin cfg0.N, (cfg0.win 2).flush t = true ∧ i ∈ ((cfg0.win 2).blk t).view.set := by
  have hi0 : (i 0).val < 200000 := idx2_lt0 i
  have hi1 : (i 1).val < 16 := idx2_lt1 i
  obtain ⟨t, ht⟩ : ∃ t : Fin cfg0.N, t.val = (i 0).val / 10000 :=
    ⟨⟨(i 0).val / 10000, lt_of_lt_of_eq (by omega : (i 0).val / 10000 < 20) N_0.symm⟩, rfl⟩
  obtain ⟨-, -, -, -, e4, e5⟩ := block_indices0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- What the first pallas_call leaves in its result array: the matrix product of the two arrays it was entered with. -/
theorem region0_array (c : Dev nD) :
    (dat0 (F := Ideal) V c).arrAt 2 cfg0.N = Gcn.mmArr (R := 200000) (K := 128) (C := 16) (V c main_arg0) (V c main_arg2) :=
  (dat0 (F := Ideal) V c).arrAt_eq_of_cover 2 _ (fun t _ => written_back0 V c t) covered0

/-! ## The second product: 200000 × 16 by 16 × 2, in 20 row blocks of 10000 -/

/-! ### The block product at an index -/

theorem lhs1_axis0 (i : S10000x2.Idx) (q : dot_S10000x16_S16x2_S10000x2_1_0_0_1_n_n.contr.Idx) :
    (dot_S10000x16_S16x2_S10000x2_1_0_0_1_n_n.lhsIdx i q 0).val = (i 0).val := by
  unfold DotDims.lhsIdx
  rw [dif_neg (show ¬(0 : Fin S10000x16.rank) ∈ dot_S10000x16_S16x2_S10000x2_1_0_0_1_n_n.lhsBatch by decide), dif_pos (show (0 : Fin S10000x16.rank) ∈ dot_S10000x16_S16x2_S10000x2_1_0_0_1_n_n.lhsNonContracting by decide)]
  rfl
theorem lhs1_axis1 (i : S10000x2.Idx) (q : dot_S10000x16_S16x2_S10000x2_1_0_0_1_n_n.contr.Idx) :
    (dot_S10000x16_S16x2_S10000x2_1_0_0_1_n_n.lhsIdx i q 1).val = (q ⟨0, by decide⟩).val :=
  dot_S10000x16_S16x2_S10000x2_1_0_0_1_n_n.lhsIdx_val_of_single rfl i q
theorem rhs1_axis0 (i : S10000x2.Idx) (q : dot_S10000x16_S16x2_S10000x2_1_0_0_1_n_n.contr.Idx) :
    (dot_S10000x16_S16x2_S10000x2_1_0_0_1_n_n.rhsIdx i q 0).val = (q ⟨0, by decide⟩).val :=
  dot_S10000x16_S16x2_S10000x2_1_0_0_1_n_n.rhsIdx_val_of_single rfl i q
theorem rhs1_axis1 (i : S10000x2.Idx) (q : dot_S10000x16_S16x2_S10000x2_1_0_0_1_n_n.contr.Idx) :
    (dot_S10000x16_S16x2_S10000x2_1_0_0_1_n_n.rhsIdx i q 1).val = (i 1).val := by
  unfold DotDims.rhsIdx
  rw [dif_neg (show ¬(1 : Fin S16x2.rank) ∈ dot_S10000x16_S16x2_S10000x2_1_0_0_1_n_n.rhsBatch by decide), dif_pos (show (1 : Fin S16x2.rank) ∈ dot_S10000x16_S16x2_S10000x2_1_0_0_1_n_n.rhsNonContracting by decide)]
  rfl

/-- The body's product of a 10000 × 16 block and the 16 × 2 weights, at row `p`, column `q`: the sum over the 16
    inner positions (the cast of the block to its own shape is the identity, the narrowing of the operands changes no
    value over the extended reals, and the accumulator starts at zero). -/
theorem block_product1 (x0 : Vec Ideal S10000x16 .f32) (x1 : Vec Ideal S16x2 .f32) (p : Fin 10000) (q : Fin 2) :
    k1_pay1 (F := Ideal) x0 x1 (ix2 p q) = ∑ k : Fin 16, x0 (ix2 p k) * x1 (ix2 k q) := by
  show FloatOps.matmul dot_S10000x16_S16x2_S10000x2_1_0_0_1_n_n none (truncf (F := Ideal) .bf16 (shapeCast S10000x16 (x0 : FVec Ideal S10000x16 .f32) shapeCasts_S10000x16_S10000x16) bitsLt_bf16_f32)
      (truncf (F := Ideal) .bf16 (x1 : FVec Ideal S16x2 .f32) bitsLt_bf16_f32) (constant (F := Ideal) S10000x2 .f32 0x00000000#32) (ix2 p q) = _
  rw [Ideal.matmul_constant_zero_apply, ← Equiv.sum_comp (contrEquiv1 dot_S10000x16_S16x2_S10000x2_1_0_0_1_n_n 16 rfl rfl).symm]
  refine Finset.sum_congr rfl fun k _ => ?_
  have hk := contrEquiv1_symm_val dot_S10000x16_S16x2_S10000x2_1_0_0_1_n_n 16 rfl rfl k
  have el : dot_S10000x16_S16x2_S10000x2_1_0_0_1_n_n.lhsIdx (ix2 p q) ((contrEquiv1 dot_S10000x16_S16x2_S10000x2_1_0_0_1_n_n 16 rfl rfl).symm k) = ix2 p k := funext fun a => Fin.ext (by
    match a with
    | ⟨0, _⟩ => exact lhs1_axis0 _ _
    | ⟨1, _⟩ => exact (lhs1_axis1 _ _).trans hk)
  have er : dot_S10000x16_S16x2_S10000x2_1_0_0_1_n_n.rhsIdx (ix2 p q) ((contrEquiv1 dot_S10000x16_S16x2_S10000x2_1_0_0_1_n_n 16 rfl rfl).symm k) = ix2 k q := funext fun a => Fin.ext (by
    match a with
    | ⟨0, _⟩ => exact (rhs1_axis0 _ _).trans hk
    | ⟨1, _⟩ => exact rhs1_axis1 _ _)
  rw [el, er, shapeCast_self]
  rfl

/-! ### The blocks in the arrays -/

/-- The three index maps over the 20 points: the rows' block is the point's number for the left operand and for the
    result, and every other block index is zero. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t`, row `p`: the array's row `t · 10000 + p`. -/
theorem lhs_block1 (c : Dev nD) (t : Fin cfg1.N) (p : Fin 10000) (k : Fin 16) (r : Fin 200000)
    (hr : r.val = t.val * 10000 + p.val) :
    (iblk1 (F := Ideal) V c 0 t : Vec Ideal S10000x16 .f32) (ix2 p k) = V c main_v53 (ix2 r k) := by
  obtain ⟨e0, e1, -, -, -, -⟩ := block_indices1 t
  show V c main_v53 (((cfg1.win 0).blk t).view.emb (ix2 p k)) = V c main_v53 (ix2 r k)
  refine congrArg _ (funext fun a => Fin.ext ?_)
  match a with
  | ⟨0, _⟩ => show win1_0.index t (0 : Fin 2) * 10000 + 1 * p.val = r.val; omega
  | ⟨1, _⟩ => show win1_0.index t (1 : Fin 2) * 16 + 1 * k.val = k.val; omega

/-- The weights' block at every point: the whole array. -/
theorem rhs_block1 (c : Dev nD) (t : Fin cfg1.N) (k : Fin 16) (q : Fin 2) :
    (iblk1 (F := Ideal) V c 1 t : Vec Ideal S16x2 .f32) (ix2 k q) = V c main_arg4 (ix2 k q) := by
  obtain ⟨-, -, e2, e3, -, -⟩ := block_indices1 t
  show V c main_arg4 (((cfg1.win 1).blk t).view.emb (ix2 k q)) = V c main_arg4 (ix2 k q)
  refine congrArg _ (funext fun a => Fin.ext ?_)
  match a with
  | ⟨0, _⟩ => show win1_1.index t (0 : Fin 2) * 16 + 1 * k.val = k.val; omega
  | ⟨1, _⟩ => show win1_1.index t (1 : Fin 2) * 2 + 1 * q.val = q.val; omega

/-- The result's block at point `t`, row `p`, sits in the array at row `t · 10000 + p`. -/
theorem out_block1 (t : Fin cfg1.N) (p : Fin 10000) (q : Fin 2) (r : Fin 200000) (hr : r.val = t.val * 10000 + p.val) :
    ((cfg1.win 2).blk t).view.emb (ix2 p q : S10000x2.Idx) = (ix2 r q : S200000x2.Idx) := by
  obtain ⟨-, -, -, -, e4, e5⟩ := block_indices1 t
  refine funext fun a => Fin.ext ?_
  match a with
  | ⟨0, _⟩ => show win1_2.index t (0 : Fin 2) * 10000 + 1 * p.val = r.val; omega
  | ⟨1, _⟩ => show win1_2.index t (1 : Fin 2) * 2 + 1 * q.val = q.val; omega

/-- What point `t` writes back is its block of the whole product. -/
theorem written_back1 (c : Dev nD) (t : Fin cfg1.N) :
    (dat1 (F := Ideal) V c).flushed 2 t
      = ((cfg1.win 2).blk t).view.read (Elt Ideal) (Gcn.mmArr (R := 200000) (K := 16) (C := 2) (V c main_v53) (V c main_arg4)) := by
  show (cfg1.win 2).cut (grid1.coords t) ((dat1 (F := Ideal) V c).after 2 t) = _
  rw [after1_2]
  unfold out1_2
  rw [View.canon_unit_zero zero_offsets]
  simp only [View.ld_unit_zero (S := S10000x16) zero_offsets, View.ld_unit_zero (S := S16x2) zero_offsets]
  funext j
  obtain ⟨p, q, rfl⟩ : ∃ (p : Fin 10000) (q : Fin 2), j = ix2 p q := ⟨j 0, j 1, eq_ix2 j⟩
  have ht : t.val < 20 := lt_of_lt_of_eq t.isLt N_1
  obtain ⟨r, hr⟩ : ∃ r : Fin 200000, r.val = t.val * 10000 + p.val := ⟨⟨t.val * 10000 + p.val, by have := p.isLt; omega⟩, rfl⟩
  refine (block_product1 _ _ p q).trans ?_
  refine Eq.trans ?_ (congrArg (Gcn.mmArr (R := 200000) (K := 16) (C := 2) (V c main_v53) (V c main_arg4)) (out_block1 t p q r hr)).symm
  rw [Gcn.mmArr_apply]
  refine Finset.sum_congr rfl fun k _ => ?_
  rw [lhs_block1 V c t p k r hr, rhs_block1 V c t k q]

/-- An index of the result array is in point `t`'s block iff each coordinate is in the block's range on its axis. -/
theorem mem_block1 (t : Fin cfg1.N) (i : S200000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v54).slice (win1_2.rect t)).set ↔ _
  rw [View.set_slice_whole, Rect.mem_set_unit]
  exact Iff.rfl

/-- Every index of the result array is in the block of the point numbered by its row divided by 10000. -/
theorem covered1 (i : S200000x2.Idx) :
    ∃ t : Fin cfg1.N, (cfg1.win 2).flush t = true ∧ i ∈ ((cfg1.win 2).blk t).view.set := by
  have hi0 : (i 0).val < 200000 := idx2_lt0 i
  have hi1 : (i 1).val < 2 := idx2_lt1 i
  obtain ⟨t, ht⟩ : ∃ t : Fin cfg1.N, t.val = (i 0).val / 10000 :=
    ⟨⟨(i 0).val / 10000, lt_of_lt_of_eq (by omega : (i 0).val / 10000 < 20) N_1.symm⟩, rfl⟩
  obtain ⟨-, -, -, -, e4, e5⟩ := block_indices1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 2 ≤ (i 1).val ∧ (i 1).val < win1_2.index t (1 : Fin 2) * 2 + 2; omega

/-- What the second pallas_call leaves in its result array, likewise. -/
theorem region1_array (c : Dev nD) :
    (dat1 (F := Ideal) V c).arrAt 2 cfg1.N = Gcn.mmArr (R := 200000) (K := 16) (C := 2) (V c main_v53) (V c main_arg4) :=
  (dat1 (F := Ideal) V c).arrAt_eq_of_cover 2 _ (fun t _ => written_back1 V c t) covered1

end Cert.KernelIdeal.KRegions

end
-- ==== Proof.KFolds.lean ====
import proofs.«121461_j37426345017679_1_alg».proof.Proof.Gen.KernelIdeal.Frame
import proofs.«121461_j37426345017679_1_alg».proof.Proof.KTerms
import proofs.«121461_j37426345017679_1_alg».proof.Proof.KRegions

/-! # The kernel program's result buffer, read back through the program

The program runs a stretch of host operations, the first matrix product, two more stretches, the second matrix
product and a last stretch. What a buffer holds at each boundary is a fold over what came before; here each buffer
the result depends on is read back through that fold to the argument arrays: a stretch writes its own results (the
whole-array functions of `KTerms`) and leaves every other buffer alone, and a pallas_call writes its result array
(the matrix product of the two arrays it was entered with, `KRegions`) and leaves the others alone. The last lemma
puts them together: at the return the result buffer holds layer 2 of the product of the rectified layer 1 of the
product `x · W1` with `W2`, as one term of the argument arrays. -/

set_option maxRecDepth 16384

noncomputable section

namespace Cert.KernelIdeal.KFolds

open Cert.KernelIdeal Cert.KernelIdeal.Gen Idealize.ShloMosaic Idealize.ShloMosaic.TcCoe Idealize.SL.Sem
open Idealize.ShloMosaic.StableHlo

section Generic
variable {F : FTy → Type} [FloatOps F]
variable (m : (ℓ : Loc nD τ sig) → Buf (Elt F) ℓ) (ρ : Dev nD → PrngReg)

/-! ## The first stretch: the edge words and the inverse square roots of the degrees; the arguments untouched -/

theorem W1_v1 (c : Dev nD) : W1 m ρ c (Proc.devRef .tc main_v1) = KTerms.src (m ((c : Thread nD τ).loc main_arg1)) := by
  show StableHlo.after hostOps0 (W0 m ρ c) (Proc.devRef .tc main_v1) = _
  after_results
  rfl

theorem W1_v3 (c : Dev nD) : W1 m ρ c (Proc.devRef .tc main_v3) = KTerms.dst (m ((c : Thread nD τ).loc main_arg1)) := by
  show StableHlo.after hostOps0 (W0 m ρ c) (Proc.devRef .tc main_v3) = _
  after_results
  rfl

theorem W1_v15 (c : Dev nD) : W1 m ρ c (Proc.devRef .tc main_v15) = KTerms.dinv (F := F) (m ((c : Thread nD τ).loc main_arg1)) := by
  show StableHlo.after hostOps0 (W0 m ρ c) (Proc.devRef .tc main_v15) = _
  after_results
  rfl

theorem W1_main_arg0 (c : Dev nD) : W1 m ρ c (Proc.devRef .tc main_arg0) = m ((c : Thread nD τ).loc main_arg0) := by
  show StableHlo.after hostOps0 (W0 m ρ c) (Proc.devRef .tc main_arg0) = _
  after_results

theorem W1_main_arg2 (c : Dev nD) : W1 m ρ c (Proc.devRef .tc main_arg2) = m ((c : Thread nD τ).loc main_arg2) := by
  show StableHlo.after hostOps0 (W0 m ρ c) (Proc.devRef .tc main_arg2) = _
  after_results

theorem W1_main_arg3 (c : Dev nD) : W1 m ρ c (Proc.devRef .tc main_arg3) = m ((c : Thread nD τ).loc main_arg3) := by
  show StableHlo.after hostOps0 (W0 m ρ c) (Proc.devRef .tc main_arg3) = _
  after_results

theorem W1_main_arg4 (c : Dev nD) : W1 m ρ c (Proc.devRef .tc main_arg4) = m ((c : Thread nD τ).loc main_arg4) := by
  show StableHlo.after hostOps0 (W0 m ρ c) (Proc.devRef .tc main_arg4) = _
  after_results

theorem W1_main_arg5 (c : Dev nD) : W1 m ρ c (Proc.devRef .tc main_arg5) = m ((c : Thread nD τ).loc main_arg5) := by
  show StableHlo.after hostOps0 (W0 m ρ c) (Proc.devRef .tc main_arg5) = _
  after_results

/-! ## The first pallas_call: its result array is the pipeline's; every buffer that is not one of its arrays is kept -/

theorem W2_v16 (c : Dev nD) : W2 m ρ c (Proc.devRef .tc main_v16) = (dat0 (V1 m ρ) c).arrAt 2 cfg0.N := W2_arr m ρ c 2
theorem W2_main_v1 (c : Dev nD) : W2 m ρ c (Proc.devRef .tc main_v1) = W1 m ρ c (Proc.devRef .tc main_v1) := W2_of_ne m ρ c main_v1 (by decide)
theorem W2_main_v3 (c : Dev nD) : W2 m ρ c (Proc.devRef .tc main_v3) = W1 m ρ c (Proc.devRef .tc main_v3) := W2_of_ne m ρ c main_v3 (by decide)
theorem W2_main_v15 (c : Dev nD) : W2 m ρ c (Proc.devRef .tc main_v15) = W1 m ρ c (Proc.devRef .tc main_v15) := W2_of_ne m ρ c main_v15 (by decide)
theorem W2_main_arg3 (c : Dev nD) : W2 m ρ c (Proc.devRef .tc main_arg3) = W1 m ρ c (Proc.devRef .tc main_arg3) := W2_of_ne m ρ c main_arg3 (by decide)
theorem W2_main_arg4 (c : Dev nD) : W2 m ρ c (Proc.devRef .tc main_arg4) = W1 m ρ c (Proc.devRef .tc main_arg4) := W2_of_ne m ρ c main_arg4 (by decide)
theorem W2_main_arg5 (c : Dev nD) : W2 m ρ c (Proc.devRef .tc main_arg5) = W1 m ρ c (Proc.devRef .tc main_arg5) := W2_of_ne m ρ c main_arg5 (by decide)

/-! ## The second and third stretches: layer 1 and the rectifier; the other buffers kept -/

set_option maxHeartbeats 4000000 in
theorem W4_v53 (c : Dev nD) : W4 m ρ c (Proc.devRef .tc main_v53)
    = KTerms.relu (F := F) (KTerms.layer1 (F := F) (W2 m ρ c (Proc.devRef .tc main_v16)) (W2 m ρ c (Proc.devRef .tc main_v15)) (W2 m ρ c (Proc.devRef .tc main_v1))
        (W2 m ρ c (Proc.devRef .tc main_v3)) (W2 m ρ c (Proc.devRef .tc main_arg3))) := by
  show StableHlo.after hostOps1_1 (StableHlo.after hostOps1 (W2 m ρ c)) (Proc.devRef .tc main_v53) = _
  after_results_simp
  rfl

theorem W4_main_v1 (c : Dev nD) : W4 m ρ c (Proc.devRef .tc main_v1) = W2 m ρ c (Proc.devRef .tc main_v1) := by
  show StableHlo.after hostOps1_1 (StableHlo.after hostOps1 (W2 m ρ c)) (Proc.devRef .tc main_v1) = _
  after_results

theorem W4_main_v3 (c : Dev nD) : W4 m ρ c (Proc.devRef .tc main_v3) = W2 m ρ c (Proc.devRef .tc main_v3) := by
  show StableHlo.after hostOps1_1 (StableHlo.after hostOps1 (W2 m ρ c)) (Proc.devRef .tc main_v3) = _
  after_results

theorem W4_main_v15 (c : Dev nD) : W4 m ρ c (Proc.devRef .tc main_v15) = W2 m ρ c (Proc.devRef .tc main_v15) := by
  show StableHlo.after hostOps1_1 (StableHlo.after hostOps1 (W2 m ρ c)) (Proc.devRef .tc main_v15) = _
  after_results

theorem W4_main_arg4 (c : Dev nD) : W4 m ρ c (Proc.devRef .tc main_arg4) = W2 m ρ c (Proc.devRef .tc main_arg4) := by
  show StableHlo.after hostOps1_1 (StableHlo.after hostOps1 (W2 m ρ c)) (Proc.devRef .tc main_arg4) = _
  after_results

theorem W4_main_arg5 (c : Dev nD) : W4 m ρ c (Proc.devRef .tc main_arg5) = W2 m ρ c (Proc.devRef .tc main_arg5) := by
  show StableHlo.after hostOps1_1 (StableHlo.after hostOps1 (W2 m ρ c)) (Proc.devRef .tc main_arg5) = _
  after_results

/-! ## The second pallas_call -/

theorem W5_v54 (c : Dev nD) : W5 m ρ c (Proc.devRef .tc main_v54) = (dat1 (V4 m ρ) c).arrAt 2 cfg1.N := W5_arr m ρ c 2
theorem W5_main_v1 (c : Dev nD) : W5 m ρ c (Proc.devRef .tc main_v1) = W4 m ρ c (Proc.devRef .tc main_v1) := W5_of_ne m ρ c main_v1 (by decide)
theorem W5_main_v3 (c : Dev nD) : W5 m ρ c (Proc.devRef .tc main_v3) = W4 m ρ c (Proc.devRef .tc main_v3) := W5_of_ne m ρ c main_v3 (by decide)
theorem W5_main_v15 (c : Dev nD) : W5 m ρ c (Proc.devRef .tc main_v15) = W4 m ρ c (Proc.devRef .tc main_v15) := W5_of_ne m ρ c main_v15 (by decide)
theorem W5_main_arg5 (c : Dev nD) : W5 m ρ c (Proc.devRef .tc main_arg5) = W4 m ρ c (Proc.devRef .tc main_arg5) := W5_of_ne m ρ c main_arg5 (by decide)

/-! ## The last stretch: layer 2 -/

set_option maxHeartbeats 4000000 in
theorem W6_v90 (c : Dev nD) : W6 m ρ c (Proc.devRef .tc main_v90)
    = KTerms.layer2 (F := F) (W5 m ρ c (Proc.devRef .tc main_v54)) (W5 m ρ c (Proc.devRef .tc main_v15)) (W5 m ρ c (Proc.devRef .tc main_v1))
        (W5 m ρ c (Proc.devRef .tc main_v3)) (W5 m ρ c (Proc.devRef .tc main_arg5)) := by
  show StableHlo.after hostOps2 (W5 m ρ c) (Proc.devRef .tc main_v90) = _
  after_results_simp
  rfl

end Generic

/-! ## Together, over the extended reals -/

section Ideal
variable (m : (ℓ : Loc nD τ sig) → Buf (Elt Ideal) ℓ) (ρ : Dev nD → PrngReg)

/-- The inverse square roots of the degrees, the source and the destination words reach every later boundary unchanged. -/
theorem W5_dinv (c : Dev nD) : W5 m ρ c (Proc.devRef .tc main_v15) = KTerms.dinv (F := Ideal) (m ((c : Thread nD τ).loc main_arg1)) := by
  rw [W5_main_v15, W4_main_v15, W2_main_v15, W1_v15]
theorem W5_src (c : Dev nD) : W5 m ρ c (Proc.devRef .tc main_v1) = KTerms.src (m ((c : Thread nD τ).loc main_arg1)) := by
  rw [W5_main_v1, W4_main_v1, W2_main_v1, W1_v1]
theorem W5_dst (c : Dev nD) : W5 m ρ c (Proc.devRef .tc main_v3) = KTerms.dst (m ((c : Thread nD τ).loc main_arg1)) := by
  rw [W5_main_v3, W4_main_v3, W2_main_v3, W1_v3]

/-- The result buffer at the return, as one term of the argument arrays. -/
theorem result_array (c : Dev nD) : W6 m ρ c (Proc.devRef .tc main_v90)
    = KTerms.layer2 (F := Ideal)
        (Gcn.mmArr (R := 200000) (K := 16) (C := 2)
          (KTerms.relu (F := Ideal) (KTerms.layer1 (F := Ideal) (Gcn.mmArr (R := 200000) (K := 128) (C := 16) (m ((c : Thread nD τ).loc main_arg0)) (m ((c : Thread nD τ).loc main_arg2)))
            (KTerms.dinv (F := Ideal) (m ((c : Thread nD τ).loc main_arg1))) (KTerms.src (m ((c : Thread nD τ).loc main_arg1))) (KTerms.dst (m ((c : Thread nD τ).loc main_arg1))) (m ((c : Thread nD τ).loc main_arg3))))
          (m ((c : Thread nD τ).loc main_arg4)))
        (KTerms.dinv (F := Ideal) (m ((c : Thread nD τ).loc main_arg1))) (KTerms.src (m ((c : Thread nD τ).loc main_arg1))) (KTerms.dst (m ((c : Thread nD τ).loc main_arg1))) (m ((c : Thread nD τ).loc main_arg5)) := by
  have h16 : W2 m ρ c (Proc.devRef .tc main_v16) = Gcn.mmArr (R := 200000) (K := 128) (C := 16) (m ((c : Thread nD τ).loc main_arg0)) (m ((c : Thread nD τ).loc main_arg2)) := by
    rw [W2_v16, KRegions.region0_array (V1 m ρ) c]
    show Gcn.mmArr (W1 m ρ c (Proc.devRef .tc main_arg0)) (W1 m ρ c (Proc.devRef .tc main_arg2)) = _
    rw [W1_main_arg0, W1_main_arg2]
  have h53 : W4 m ρ c (Proc.devRef .tc main_v53) = KTerms.relu (F := Ideal) (KTerms.layer1 (F := Ideal) (Gcn.mmArr (R := 200000) (K := 128) (C := 16) (m ((c : Thread nD τ).loc main_arg0)) (m ((c : Thread nD τ).loc main_arg2)))
      (KTerms.dinv (F := Ideal) (m ((c : Thread nD τ).loc main_arg1))) (KTerms.src (m ((c : Thread nD τ).loc main_arg1))) (KTerms.dst (m ((c : Thread nD τ).loc main_arg1))) (m ((c : Thread nD τ).loc main_arg3))) := by
    rw [W4_v53, h16, W2_main_v15, W1_v15, W2_main_v1, W1_v1, W2_main_v3, W1_v3, W2_main_arg3, W1_main_arg3]
  have h54 : W5 m ρ c (Proc.devRef .tc main_v54) = Gcn.mmArr (R := 200000) (K := 16) (C := 2) (W4 m ρ c (Proc.devRef .tc main_v53)) (m ((c : Thread nD τ).loc main_arg4)) := by
    rw [W5_v54, KRegions.region1_array (V4 m ρ) c]
    show Gcn.mmArr (W4 m ρ c (Proc.devRef .tc main_v53)) (W4 m ρ c (Proc.devRef .tc main_arg4)) = _
    rw [W4_main_arg4, W2_main_arg4, W1_main_arg4]
  rw [W6_v90, h54, h53, W5_dinv, W5_src, W5_dst, W5_main_arg5, W4_main_arg5, W2_main_arg5, W1_main_arg5]

end Ideal

end Cert.KernelIdeal.KFolds

end
-- ==== Proof.LibSegmentScatter.lean ====
import Idealize.ShloMosaic.Lib.ValueIdx
import Idealize.ShloMosaic.Lib.StableHlo.Predicate
import Idealize.ShloMosaic.PureOps.Ideal.Laws

/-! # Segment gathers and accumulating scatters by a column of start indices, read at an index

The message passing of a graph layer moves rows between a table of `N` rows and a list of `E` edges through ONE column
`[E, 1]` of start indices: the gather copies, for each edge, the table's row at the edge's index; the scatter-add sums,
into each row of the table, the edges' rows whose index is that row. This file reads both at an index, for every
extent `N`, `E`, `C`, in the two layouts a program prints: rows `[N, C]` ↔ `[E, C]` (axis 0 indexed, axis 1 carried whole as
the window / offset axis) and entries `[N]` ↔ `[E]` (no window axis).

* The GATHER reads its start index SIGNED and CLAMPS it into the table: entry `(e, k)` of the result is the table's at
  row `min idx[e,0] (N − 1)` (a negative index reads row 0) and column `k` (`gather_rows_apply`, `gather_entries_apply`).
* The SCATTER-ADD reads its start index SIGNED and does NOT clamp it: update `(e, k')` lands at `(v, k)` exactly when
  `idx[e,0] = v` as integers and `k' = k` (`rows_resultIdx?_eq_some_iff`, `entries_resultIdx?_eq_some_iff`), so over the
  extended reals entry `(v, k)` of the result is the operand's plus `Σ_e [idx[e,0] = v] · upd[e, k]`; an update whose index
  is negative or ≥ `N` meets no `v` and adds nothing (`scatterAdd_rows_apply`, `scatterAdd_entries_apply`).

Each family of dimension numbers is a record built from its well-formedness alone (`rowScatterDims`, `entryScatterDims`,
`rowGatherDims`, `entryGatherDims`), so a program's printed record with these numbers IS that record at the program's
extents, and a lemma here applies to it as it stands. Every step is over symbolic extents: nothing is enumerated. -/

noncomputable section

namespace Cert.LibSegmentScatter

open Idealize.ShloMosaic Idealize.ShloMosaic.ValueIdx
open scoped BigOperators

/-! ## The row scatter-add: a [N, C] operand, [E, 1] start indices, [E, C] updates -/

/-- The dimension numbers of a row scatter: the updates' axis 1 is the window axis, the operand's axis 0 is inserted
    and indexed by the one component of the start index, which sits on axis 1 of the start indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the indexed axis the window starts at the edge's start index, read signed. -/
theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the carried axis the window starts at 0. -/
theorem rows_start_one : (rowScatterDims N E C wf).start (ix2 e k') idx 1 = 0 := by
  unfold ScatterDims.start
  rw [dif_neg (show (1 : Fin 2) ∉ ([0] : List (Fin 2)) by decide)]

/-- The indexed axis is inserted: no window coordinate there. -/
theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

/-- On the carried axis the window coordinate is the update's column. -/
theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

/-- An update (e, k') of the row scatter lands at entry (v, k) exactly when its start index, read signed, is v and its
    column is k. -/
theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

/-- THE ROW SCATTER-ADD READ AT (v, k): the operand's entry plus the updates' column k over the edges whose start index,
    read signed, is v. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

/-! ## The entry scatter-add: a [N] operand, [E, 1] start indices, [E] updates -/

/-- The dimension numbers of an entry scatter: no window axis; the operand's one axis is inserted and indexed. -/
abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's start index, read signed. -/
theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

/-- An update e of the entry scatter lands at entry v exactly when its start index, read signed, is v. -/
theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

/-- THE ENTRY SCATTER-ADD READ AT v: the operand's entry plus the updates over the edges whose start index, read signed,
    is v. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

/-! ## The row gather and the entry gather -/

/-- The dimension numbers of a row gather: the operand's axis 0 is collapsed and indexed (slice size 1), its axis 1 is
    taken whole (slice size C) onto the result's offset axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the table at the row `idx[e,0]` read signed and clamped into `[0, N − 1]`, column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

/-- The dimension numbers of an entry gather: the operand's one axis is collapsed and indexed; no offset axis. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the table at `idx[e,0]` read signed and clamped into `[0, N − 1]`. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.KValue.lean ====
import proofs.«121461_j37426345017679_1_alg».proof.Proof.KTerms
import proofs.«121461_j37426345017679_1_alg».proof.Proof.GcnSpec
import proofs.«121461_j37426345017679_1_alg».proof.Proof.LibSegmentScatter
import proofs.«121461_j37426345017679_1_alg».proof.Proof.Gen.KernelIdeal
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.KValue

open Cert.KernelIdeal Idealize.ShloMosaic Idealize.ShloMosaic.ValueIdx
open scoped BigOperators

/-! ## The edge words, normalised words and index columns -/

/-- The source word of edge `e`. -/
theorem src_apply (ei : IVec S2x6400000 32) (e : Fin 6400000) : KTerms.src ei (ix1 e) = ei (ix2 0 e) := by
  unfold KTerms.src
  refine (shapeCast_apply _ _ (ix1 e) (ix2 (0 : Fin 1) e) (by
    rw [Shape.rowMajor_val_two, Shape.rowMajor_val_one]; show 0 * 6400000 + e.val = e.val; omega)).trans ?_
  refine extractStridedSlice_apply _ _ _ (ix2 (0 : Fin 1) e) (ix2 (0 : Fin 2) e) (by
    intro a
    match a with
    | ⟨0, _⟩ => rfl
    | ⟨1, _⟩ => show e.val = 0 + e.val; omega)

/-- The destination word of edge `e`. -/
theorem dst_apply (ei : IVec S2x6400000 32) (e : Fin 6400000) : KTerms.dst ei (ix1 e) = ei (ix2 1 e) := by
  unfold KTerms.dst
  refine (shapeCast_apply _ _ (ix1 e) (ix2 (0 : Fin 1) e) (by
    rw [Shape.rowMajor_val_two, Shape.rowMajor_val_one]; show 0 * 6400000 + e.val = e.val; omega)).trans ?_
  refine extractStridedSlice_apply _ _ _ (ix2 (0 : Fin 1) e) (ix2 (1 : Fin 2) e) (by
    intro a
    match a with
    | ⟨0, _⟩ => rfl
    | ⟨1, _⟩ => show e.val = 0 + e.val; omega)

/-- The normalised index vector at an edge is the normalisation of the edge's word: the two splats read their constants
    and the comparison, the sum and the choice are elementwise. -/
theorem nrm_apply (w : IVec S6400000 32) (e : Fin 6400000) : KTerms.nrm w (ix1 e) = Gcn.nrm 200000 (w (ix1 e)) := rfl

/-- An index vector as a column reads, at row `e`, entry `e`. -/
theorem col_apply (w : IVec S6400000 32) (e : Fin 6400000) : KTerms.col w (ix2 e 0) = w (ix1 e) := by
  unfold KTerms.col
  refine broadcastInDim_apply _ _ _ (ix2 e (0 : Fin 1)) (ix1 e) (by
    intro a
    match a with
    | ⟨0, _⟩ => show e.val = if (6400000 : ℕ) = 1 then 0 else e.val; rw [if_neg (by decide)])

/-! ## Splats, the host's inverse square root, and the entry scatter-add of the program -/

/-- A scalar splat reads the extended real its word encodes, everywhere. -/
theorem splat_apply {s : Shape} (h : S_.BroadcastsInDim s (![] : Fin 0 → Fin s.rank)) (w : BitVec 32) (i : s.Idx) :
    broadcastInDim s ![] h (constant (F := Ideal) S_ .f32 w) i = Ideal.ofBits .f32 w := rfl

/-- The host's inverse square root at an index is the extended reals' of the element. -/
theorem hostRsqrt_apply {s : Shape} (x : FVec Ideal s .f32) (i : s.Idx) : Host.rsqrt x i = Ideal.rsqrt (x i) := rfl

/-- The program's entry scatter-add at node `v`: the operand's entry plus the updates of the edges whose start word,
    read signed, is `v`. -/
theorem scatterAdd_entries_at (x : FVec Ideal S200000 .f32) (idx : IVec S6400000x1 32) (upd : FVec Ideal S6400000 .f32)
    (v : Fin 200000) :
    Host.scatterAdd scatter_S200000_S6400000x1_S6400000_n_0_0_1 x idx upd (ix1 v)
      = x (ix1 v) + ∑ e : Fin 6400000, if (idx (ix2 e 0)).toInt = (v.val : ℤ) then upd (ix1 e) else 0 :=
  LibSegmentScatter.scatterAdd_entries_apply (N := 200000) (E := 6400000)
    Facts₀.scatter_S200000_S6400000x1_S6400000_n_0_0_1_wf x idx upd v

/-! ## One layer's host stretch at symbolic extents

The stretch is the same term at 16 columns and at 2: a row gather, two entry gathers, three chains of two broadcasts, a
row scatter-add, and elementwise products and sums. Read at `(v, k)` over a table of `N` rows and `C` columns and `E`
edges, with the three columns of start words as variables. -/

section Layer
variable {N E C : Nat}

/-- A vector `[M]` as a column `[M, 1]`, the column repeated along `C` columns: entry `(e, k)` reads entry `e`. -/
theorem bcast_col_apply {α : Type} {M : Nat}
    (h1 : (⟨1, ![M]⟩ : Shape).BroadcastsInDim ⟨2, ![M, 1]⟩ (![0] : Fin 1 → Fin (⟨2, ![M, 1]⟩ : Shape).rank))
    (h2 : (⟨2, ![M, 1]⟩ : Shape).BroadcastsInDim ⟨2, ![M, C]⟩ (![0, 1] : Fin 2 → Fin (⟨2, ![M, C]⟩ : Shape).rank))
    (x : (⟨1, ![M]⟩ : Shape).Idx → α) (e : Fin M) (k : Fin C) :
    broadcastInDim ⟨2, ![M, C]⟩ ![0, 1] h2 (broadcastInDim ⟨2, ![M, 1]⟩ ![0] h1 x) (ix2 e k) = x (ix1 e) := by
  have he := e.isLt
  refine (broadcastInDim_apply _ h2 _ (ix2 e k) (ix2 e (0 : Fin 1)) (by
    intro a
    match a with
    | ⟨0, _⟩ => show e.val = if M = 1 then 0 else e.val; split <;> omega
    | ⟨1, _⟩ => rfl)).trans ?_
  exact broadcastInDim_apply _ h1 _ (ix2 e (0 : Fin 1)) (ix1 e) (by
    intro a
    match a with
    | ⟨0, _⟩ => show e.val = if M = 1 then 0 else e.val; split <;> omega)

/-- A vector `[C]` as a row `[1, C]`, the row repeated along `N` rows: entry `(v, k)` reads entry `k`. -/
theorem bcast_row_apply {α : Type}
    (h1 : (⟨1, ![C]⟩ : Shape).BroadcastsInDim ⟨2, ![1, C]⟩ (![1] : Fin 1 → Fin (⟨2, ![1, C]⟩ : Shape).rank))
    (h2 : (⟨2, ![1, C]⟩ : Shape).BroadcastsInDim ⟨2, ![N, C]⟩ (![0, 1] : Fin 2 → Fin (⟨2, ![N, C]⟩ : Shape).rank))
    (x : (⟨1, ![C]⟩ : Shape).Idx → α) (v : Fin N) (k : Fin C) :
    broadcastInDim ⟨2, ![N, C]⟩ ![0, 1] h2 (broadcastInDim ⟨2, ![1, C]⟩ ![1] h1 x) (ix2 v k) = x (ix1 k) := by
  have hk := k.isLt
  refine (broadcastInDim_apply _ h2 _ (ix2 v k) (ix2 (0 : Fin 1) k) (by
    intro a
    match a with
    | ⟨0, _⟩ => rfl
    | ⟨1, _⟩ => show k.val = if C = 1 then 0 else k.val; split <;> omega)).trans ?_
  exact broadcastInDim_apply _ h1 _ (ix2 (0 : Fin 1) k) (ix1 k) (by
    intro a
    match a with
    | ⟨0, _⟩ => show k.val = if C = 1 then 0 else k.val; split <;> omega)

/-- The row scatter-add over the extended reals at `(v, k)`, its operand the zero splat: the updates' column `k` summed
    over the edges whose start word, read signed, is `v`. -/
theorem scatterAdd_rows_zero_apply (wfS : ScatterDims.WF ⟨2, ![N, C]⟩ ⟨2, ![E, 1]⟩ ⟨2, ![E, C]⟩ [1] [0] [0] 1)
    (hb0 : S_.BroadcastsInDim ⟨2, ![N, C]⟩ (![] : Fin 0 → Fin (⟨2, ![N, C]⟩ : Shape).rank))
    (idx : IVec ⟨2, ![E, 1]⟩ 32) (upd : FVec Ideal ⟨2, ![E, C]⟩ .f32) (v : Fin N) (k : Fin C) :
    Host.scatterAdd (LibSegmentScatter.rowScatterDims N E C wfS)
        (broadcastInDim ⟨2, ![N, C]⟩ ![] hb0 (constant (F := Ideal) S_ .f32 0x00000000#32)) idx upd (ix2 v k)
      = ∑ e : Fin E, if (idx (ix2 e 0)).toInt = (v.val : ℤ) then upd (ix2 e k) else 0 := by
  refine (LibSegmentScatter.scatterAdd_rows_apply wfS _ idx upd v k).trans ?_
  rw [splat_apply, Ideal.ofBits_zero_f32, zero_add]

/-- ONE LAYER'S STRETCH AT `(v, k)`: the messages of the edges whose scatter word is `v` — the table's gathered row
    scaled by the two gathered scales —, the node's own row scaled by its scale squared, and the bias. -/
theorem layer_at (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (hb0 : S_.BroadcastsInDim ⟨2, ![N, C]⟩ (![] : Fin 0 → Fin (⟨2, ![N, C]⟩ : Shape).rank))
    (hbE1 : (⟨1, ![E]⟩ : Shape).BroadcastsInDim ⟨2, ![E, 1]⟩ (![0] : Fin 1 → Fin (⟨2, ![E, 1]⟩ : Shape).rank))
    (hbEC : (⟨2, ![E, 1]⟩ : Shape).BroadcastsInDim ⟨2, ![E, C]⟩ (![0, 1] : Fin 2 → Fin (⟨2, ![E, C]⟩ : Shape).rank))
    (hbN1 : (⟨1, ![N]⟩ : Shape).BroadcastsInDim ⟨2, ![N, 1]⟩ (![0] : Fin 1 → Fin (⟨2, ![N, 1]⟩ : Shape).rank))
    (hbNC : (⟨2, ![N, 1]⟩ : Shape).BroadcastsInDim ⟨2, ![N, C]⟩ (![0, 1] : Fin 2 → Fin (⟨2, ![N, C]⟩ : Shape).rank))
    (hbC1 : (⟨1, ![C]⟩ : Shape).BroadcastsInDim ⟨2, ![1, C]⟩ (![1] : Fin 1 → Fin (⟨2, ![1, C]⟩ : Shape).rank))
    (hb1C : (⟨2, ![1, C]⟩ : Shape).BroadcastsInDim ⟨2, ![N, C]⟩ (![0, 1] : Fin 2 → Fin (⟨2, ![N, C]⟩ : Shape).rank))
    (h : FVec Ideal ⟨2, ![N, C]⟩ .f32) (dv : FVec Ideal ⟨1, ![N]⟩ .f32) (iS iGs iGd : IVec ⟨2, ![E, 1]⟩ 32)
    (b : FVec Ideal ⟨1, ![C]⟩ .f32) (v : Fin N) (k : Fin C) :
    addf
      (addf
        (Host.scatterAdd (LibSegmentScatter.rowScatterDims N E C wfS)
          (broadcastInDim ⟨2, ![N, C]⟩ ![] hb0 (constant S_ .f32 0x00000000#32))
          iS
          (mulf (Host.gather (LibSegmentScatter.rowGatherDims N E C wfG) h iGs)
            (broadcastInDim ⟨2, ![E, C]⟩ ![0, 1] hbEC
              (broadcastInDim ⟨2, ![E, 1]⟩ ![0] hbE1
                (mulf (Host.gather (LibSegmentScatter.entryGatherDims N E wfg) dv iGs)
                  (Host.gather (LibSegmentScatter.entryGatherDims N E wfg) dv iGd))))))
        (mulf h (broadcastInDim ⟨2, ![N, C]⟩ ![0, 1] hbNC (broadcastInDim ⟨2, ![N, 1]⟩ ![0] hbN1 (mulf dv dv)))))
      (broadcastInDim ⟨2, ![N, C]⟩ ![0, 1] hb1C (broadcastInDim ⟨2, ![1, C]⟩ ![1] hbC1 b)) (ix2 v k)
    = ((∑ e : Fin E, if (iS (ix2 e 0)).toInt = (v.val : ℤ) then
          h (ix2 (Gcn.row hN (iGs (ix2 e 0))) k)
            * (dv (ix1 (Gcn.row hN (iGs (ix2 e 0)))) * dv (ix1 (Gcn.row hN (iGd (ix2 e 0))))) else 0)
        + h (ix2 v k) * (dv (ix1 v) * dv (ix1 v))) + b (ix1 k) := by
  rw [addf_apply, addf_apply, bcast_row_apply, scatterAdd_rows_zero_apply, mulf_apply, bcast_col_apply, mulf_apply]
  congr 2
  refine Finset.sum_congr rfl fun e _ => ?_
  rw [mulf_apply, bcast_col_apply, mulf_apply, LibSegmentScatter.gather_rows_apply hN wfG,
    LibSegmentScatter.gather_entries_apply hN wfg, LibSegmentScatter.gather_entries_apply hN wfg]
  rfl

end Layer

/-! ## The six readings -/

/-- Where every destination word is non-negative, the host's inverse square root of the degrees is the specification's. -/
theorem dinv_apply (ei : IVec S2x6400000 32) (hdst : ∀ e : Fin 6400000, 0 ≤ (ei (ix2 1 e)).toInt) (v : Fin 200000) :
    KTerms.dinv (F := Ideal) ei (ix1 v) = Gcn.dinv (fun e : Fin 6400000 => ei (ix2 1 e)) v := by
  unfold KTerms.dinv Gcn.dinv Gcn.deg
  rw [hostRsqrt_apply, addf_apply, scatterAdd_entries_at, splat_apply, splat_apply, Ideal.ofBits_one_f32,
    Ideal.ofBits_zero_f32, zero_add, ← Gcn.cnt_nrm (N := 200000) (fun e : Fin 6400000 => ei (ix2 1 e)) hdst v]
  refine congrArg Ideal.rsqrt (congrArg₂ (· + ·) (Finset.sum_congr rfl fun e _ => ?_) rfl)
  rw [col_apply, nrm_apply, dst_apply, splat_apply, Ideal.ofBits_one_f32]

/-- The first layer's host stretch at node `v`, column `k`, is the specification's layer over the table `h`. -/
theorem layer1_apply (h : FVec Ideal S200000x16 .f32) (ei : IVec S2x6400000 32) (b : FVec Ideal S16 .f32)
    (hdst : ∀ e : Fin 6400000, 0 ≤ (ei (ix2 1 e)).toInt) (v : Fin 200000) (k : Fin 16) :
    KTerms.layer1 h (KTerms.dinv ei) (KTerms.src ei) (KTerms.dst ei) b (ix2 v k)
      = Gcn.layer (N := 200000) (by decide) (fun e : Fin 6400000 => ei (ix2 0 e)) (fun e : Fin 6400000 => ei (ix2 1 e))
          (fun v k => h (ix2 v k)) (fun k => b (ix1 k)) v k := by
  unfold KTerms.layer1 Gcn.layer Gcn.msg
  refine (layer_at (N := 200000) (E := 6400000) (C := 16) (by decide)
    Facts₀.scatter_S200000x16_S6400000x1_S6400000x16_1_0_0_1_wf
    Facts₀.gather_S200000x16_S6400000x1_S6400000x16_1_0_n_n_0_1_116_wf
    Facts₀.gather_S200000_S6400000x1_S6400000_n_0_n_n_0_1_1_wf
    Facts₀.bcast_S_S200000x16 Facts₀.bcast_S6400000_S6400000x1_0 Facts₀.bcast_S6400000x1_S6400000x16_0_1
    Facts₀.bcast_S200000_S200000x1_0 Facts₀.bcast_S200000x1_S200000x16_0_1
    Facts₀.bcast_S16_S1x16_1 Facts₀.bcast_S1x16_S200000x16_0_1
    h (KTerms.dinv ei) (KTerms.col (KTerms.dst ei)) (KTerms.col (KTerms.nrm (KTerms.src ei)))
    (KTerms.col (KTerms.nrm (KTerms.dst ei))) b v k).trans ?_
  rw [dinv_apply ei hdst v]
  refine congrArg₂ (· + ·) (congrArg₂ (· + ·) (Finset.sum_congr rfl fun e _ => ?_) rfl) rfl
  rw [col_apply, col_apply, col_apply, nrm_apply, nrm_apply, src_apply, dst_apply, dinv_apply ei hdst, dinv_apply ei hdst]

/-- The second layer's host stretch, likewise, at 2 columns. -/
theorem layer2_apply (h : FVec Ideal S200000x2 .f32) (ei : IVec S2x6400000 32) (b : FVec Ideal S2 .f32)
    (hdst : ∀ e : Fin 6400000, 0 ≤ (ei (ix2 1 e)).toInt) (v : Fin 200000) (k : Fin 2) :
    KTerms.layer2 h (KTerms.dinv ei) (KTerms.src ei) (KTerms.dst ei) b (ix2 v k)
      = Gcn.layer (N := 200000) (by decide) (fun e : Fin 6400000 => ei (ix2 0 e)) (fun e : Fin 6400000 => ei (ix2 1 e))
          (fun v k => h (ix2 v k)) (fun k => b (ix1 k)) v k := by
  unfold KTerms.layer2 Gcn.layer Gcn.msg
  refine (layer_at (N := 200000) (E := 6400000) (C := 2) (by decide)
    Facts₀.scatter_S200000x2_S6400000x1_S6400000x2_1_0_0_1_wf
    Facts₀.gather_S200000x2_S6400000x1_S6400000x2_1_0_n_n_0_1_12_wf
    Facts₀.gather_S200000_S6400000x1_S6400000_n_0_n_n_0_1_1_wf
    Facts₀.bcast_S_S200000x2 Facts₀.bcast_S6400000_S6400000x1_0 Facts₀.bcast_S6400000x1_S6400000x2_0_1
    Facts₀.bcast_S200000_S200000x1_0 Facts₀.bcast_S200000x1_S200000x2_0_1
    Facts₀.bcast_S2_S1x2_1 Facts₀.bcast_S1x2_S200000x2_0_1
    h (KTerms.dinv ei) (KTerms.col (KTerms.dst ei)) (KTerms.col (KTerms.nrm (KTerms.src ei)))
    (KTerms.col (KTerms.nrm (KTerms.dst ei))) b v k).trans ?_
  rw [dinv_apply ei hdst v]
  refine congrArg₂ (· + ·) (congrArg₂ (· + ·) (Finset.sum_congr rfl fun e _ => ?_) rfl) rfl
  rw [col_apply, col_apply, col_apply, nrm_apply, nrm_apply, src_apply, dst_apply, dinv_apply ei hdst, dinv_apply ei hdst]

/-- The rectifier at an entry. -/
theorem relu_apply (x : FVec Ideal S200000x16 .f32) (v : Fin 200000) (k : Fin 16) :
    KTerms.relu x (ix2 v k) = Gcn.relu (x (ix2 v k)) := by
  unfold KTerms.relu Gcn.relu
  rw [maximumf_apply, splat_apply, Ideal.ofBits_zero_f32]

end Cert.KernelIdeal.KValue

end
-- ==== Proof.KernelValue.lean ====
import proofs.«121461_j37426345017679_1_alg».proof.Proof.KFolds
import proofs.«121461_j37426345017679_1_alg».proof.Proof.KValue

/-! # The kernel program's result, entry by entry

At the return the result buffer holds layer 2 of `relu (layer 1 (x · W1)) · W2` as a term of whole-array operations
(`KFolds.result_array`). Read at node `v`, column `k`: the outer stretch is the specification's layer over the second
product's table; an entry of that product is the sum over `j` of the rectified first layer's entry times `W2[j, k]`;
the first layer is the specification's layer over the first product's table. Together: the specification's network. -/

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- Where every destination word is non-negative, the result buffer at the return holds the specification's network
    of the argument arrays. -/
theorem value (c : Dev nD) (hdst : ∀ e : Fin 6400000, 0 ≤ ((m ((c : Thread nD τ).loc main_arg1)) (ix2 1 e)).toInt) (v : Fin 200000) (k : Fin 2) :
    W6 m ρ c (Proc.devRef .tc main_v90) (ix2 v k)
      = Gcn.out (N := 200000) (by decide) (fun e : Fin 6400000 => (m ((c : Thread nD τ).loc main_arg1)) (ix2 0 e))
          (fun e : Fin 6400000 => (m ((c : Thread nD τ).loc main_arg1)) (ix2 1 e))
          (fun v j => (m ((c : Thread nD τ).loc main_arg0)) (ix2 v j)) (fun j k => (m ((c : Thread nD τ).loc main_arg2)) (ix2 j k)) (fun k => (m ((c : Thread nD τ).loc main_arg3)) (ix1 k))
          (fun j k => (m ((c : Thread nD τ).loc main_arg4)) (ix2 j k)) (fun k => (m ((c : Thread nD τ).loc main_arg5)) (ix1 k)) v k := by
  rw [KFolds.result_array, KValue.layer2_apply _ _ _ hdst]
  unfold Gcn.out
  refine congrArg (fun t => Gcn.layer _ _ _ t _ v k) ?_
  funext v' k'
  rw [Gcn.mmArr_apply]
  unfold Gcn.mm
  refine Finset.sum_congr rfl fun j _ => ?_
  rw [KValue.relu_apply, KValue.layer1_apply _ _ _ hdst]
  rfl

end Cert.KernelIdeal.KernelValue

end
-- ==== Proof.PreDecode.lean ====
import proofs.«121461_j37426345017679_1_alg».proof.Pre_finite_inputs
import proofs.«121461_j37426345017679_1_alg».proof.Proof.Gen.Pre_finite_inputs
import proofs.«121461_j37426345017679_1_alg».proof.Proof.KValue
import Idealize.ShloMosaic.Lib.ReduceAll
import Idealize.ShloMosaic.Lib.Affine
import Idealize.ShloMosaic.Lib.ValueIdx

/-! # What the precondition says of the edge list

The precondition is a conjunction of `jnp.all`s; its last conjunct is `all (edge_index[1] >= 0)`. Read at an edge, it
says the destination word of that edge, read signed, is not negative. -/

noncomputable section

namespace Cert.PreDecode

open Idealize.ShloMosaic Idealize.ShloMosaic.ValueIdx

instance : Subsingleton Cert.Pre_finite_inputs.S_.Idx := ⟨fun _ _ => funext fun d => d.elim0⟩

/-- Under the precondition every destination word is non-negative. -/
theorem dst_nonneg {F : FTy → Type} [FloatOps F] (x0 : FVec F Cert.Pre_finite_inputs.S200000x128 .f32)
    (x1 : IVec Cert.Pre_finite_inputs.S2x6400000 32) (x2 : FVec F Cert.Pre_finite_inputs.S128x16 .f32)
    (x3 : FVec F Cert.Pre_finite_inputs.S16 .f32) (x4 : FVec F Cert.Pre_finite_inputs.S16x2 .f32)
    (x5 : FVec F Cert.Pre_finite_inputs.S2 .f32)
    (h : Cert.Pre_finite_inputs.fn (F := F) x0 x1 x2 x3 x4 x5 = fun _ => 1#1) (e : Fin 6400000) :
    0 ≤ (x1 (ix2 1 e)).toInt := by
  have h0 := congrFun h ix0
  dsimp only [Cert.Pre_finite_inputs.fn, Cert.Pre_finite_inputs.fn_part1] at h0
  change IntOp.andi _ _ = 1#1 at h0
  have h1 := (IntOp.andi_eq_one.mp h0).2
  have h2 := Host.reduce_andi_all _ _ _ _ _ h1 (ix1 e)
  have h3 : IntOp.cmpi .sge (Cert.KernelIdeal.KTerms.dst x1 (ix1 e)) 0#32 = 1#1 := h2
  rw [Cert.KernelIdeal.KValue.dst_apply] at h3
  unfold IntOp.cmpi at h3
  generalize x1 (ix2 1 e) = w at h3
  have h4 : (0#32).sle w = true := by
    cases hb : (0#32).sle w
    · simp only [hb] at h3
      exact absurd h3 (by decide)
    · rfl
  rw [BitVec.sle] at h4
  simpa using h4

end Cert.PreDecode

end
-- ==== Proof.RefLayer.lean ====
import proofs.«121461_j37426345017679_1_alg».proof.Proof.KValue
import proofs.«121461_j37426345017679_1_alg».proof.Proof.GcnSpec
import proofs.«121461_j37426345017679_1_alg».proof.Proof.LibSegmentScatter
import Idealize.ShloMosaic.Lib.ValueIdx
import Idealize.ShloMosaic.Lib.IdealHost
import Idealize.ShloMosaic.PureOps.Ideal.Laws

/-! # The layer written over the edge list with the loops appended, at symbolic extents

Where the loops are edges, one layer's host stretch has no term for the node's own row: it gathers the table's rows and
the scales at the start words, multiplies, scatter-adds into the rows the scatter words name, and adds the bias. Its
scales are the inverse square roots of the counts, guarded by "the count is positive": a scatter-add of ones over the
scatter words, a comparison with zero, and a choice between the inverse square root and zero. Both are read here at an
index, over the extended reals, for every extent `N`, `E`, `C`, with the columns of start words as variables. -/

noncomputable section

namespace Cert.RefLayer

open Idealize.ShloMosaic Idealize.ShloMosaic.ValueIdx Cert.KernelIdeal.KValue
open scoped BigOperators

variable {N E C : Nat}

/-! ## The counts and their guarded inverse square roots -/

/-- THE COUNT AT `v`: a scatter-add of ones into zeros reads, at node `v`, the number of edges whose scatter word, read
    signed, is `v`. -/
theorem deg_at (wfE : ScatterDims.WF ⟨1, ![N]⟩ ⟨2, ![E, 1]⟩ ⟨1, ![E]⟩ [] [0] [0] 1)
    (hbN : (⟨0, ![]⟩ : Shape).BroadcastsInDim ⟨1, ![N]⟩ (![] : Fin 0 → Fin (⟨1, ![N]⟩ : Shape).rank))
    (hbE : (⟨0, ![]⟩ : Shape).BroadcastsInDim ⟨1, ![E]⟩ (![] : Fin 0 → Fin (⟨1, ![E]⟩ : Shape).rank))
    (iS : IVec ⟨2, ![E, 1]⟩ 32) (v : Fin N) :
    Host.scatterAdd (LibSegmentScatter.entryScatterDims N E wfE)
        (broadcastInDim ⟨1, ![N]⟩ ![] hbN (constant (F := Ideal) ⟨0, ![]⟩ .f32 0x00000000#32)) iS
        (broadcastInDim ⟨1, ![E]⟩ ![] hbE (constant (F := Ideal) ⟨0, ![]⟩ .f32 0x3F800000#32)) (ix1 v)
      = ∑ e : Fin E, if (iS (ix2 e 0)).toInt = (v.val : ℤ) then (1 : EReal) else 0 := by
  refine (LibSegmentScatter.scatterAdd_entries_apply wfE _ iS _ v).trans ?_
  rw [splat_apply, Ideal.ofBits_zero_f32, zero_add]
  refine Finset.sum_congr rfl fun e _ => ?_
  rw [splat_apply, Ideal.ofBits_one_f32]

/-- A choice guarded by "`a` is greater than zero" takes its first operand where `a` is positive. -/
theorem select_ogt_zero_of_pos (a r z : EReal) (ha : 0 < a) :
    Scalar.select (FloatOps.cmpf (F := Ideal) (φ := .f32) .ogt a 0) r z = r := by
  show Scalar.select (BitVec.ofBool (decide ((0 : EReal) < a))) r z = r
  rw [decide_eq_true ha]
  exact select_one r z

/-- THE GUARDED INVERSE SQUARE ROOT AT `v`: where the count at `v` is positive, the choice reads the inverse square root
    of the count. -/
theorem ref_dinv_at (wfE : ScatterDims.WF ⟨1, ![N]⟩ ⟨2, ![E, 1]⟩ ⟨1, ![E]⟩ [] [0] [0] 1)
    (hbN hbN' hbN'' : (⟨0, ![]⟩ : Shape).BroadcastsInDim ⟨1, ![N]⟩ (![] : Fin 0 → Fin (⟨1, ![N]⟩ : Shape).rank))
    (hbE : (⟨0, ![]⟩ : Shape).BroadcastsInDim ⟨1, ![E]⟩ (![] : Fin 0 → Fin (⟨1, ![E]⟩ : Shape).rank))
    (iS : IVec ⟨2, ![E, 1]⟩ 32) (v : Fin N)
    (hpos : 0 < ∑ e : Fin E, if (iS (ix2 e 0)).toInt = (v.val : ℤ) then (1 : EReal) else 0) :
    select
        (cmpf .ogt
          (Host.scatterAdd (LibSegmentScatter.entryScatterDims N E wfE)
            (broadcastInDim ⟨1, ![N]⟩ ![] hbN (constant (F := Ideal) ⟨0, ![]⟩ .f32 0x00000000#32)) iS
            (broadcastInDim ⟨1, ![E]⟩ ![] hbE (constant (F := Ideal) ⟨0, ![]⟩ .f32 0x3F800000#32)))
          (broadcastInDim ⟨1, ![N]⟩ ![] hbN' (constant (F := Ideal) ⟨0, ![]⟩ .f32 0x00000000#32)))
        (Host.rsqrt
          (Host.scatterAdd (LibSegmentScatter.entryScatterDims N E wfE)
            (broadcastInDim ⟨1, ![N]⟩ ![] hbN (constant (F := Ideal) ⟨0, ![]⟩ .f32 0x00000000#32)) iS
            (broadcastInDim ⟨1, ![E]⟩ ![] hbE (constant (F := Ideal) ⟨0, ![]⟩ .f32 0x3F800000#32))))
        (broadcastInDim ⟨1, ![N]⟩ ![] hbN'' (constant (F := Ideal) ⟨0, ![]⟩ .f32 0x00000000#32)) (ix1 v)
      = Ideal.rsqrt (∑ e : Fin E, if (iS (ix2 e 0)).toInt = (v.val : ℤ) then (1 : EReal) else 0) := by
  rw [select_apply, cmpf_apply, hostRsqrt_apply, deg_at, splat_apply, Ideal.ofBits_zero_f32]
  exact select_ogt_zero_of_pos _ _ _ hpos

/-! ## The layer -/

/-- THE LAYER'S STRETCH AT `(v, k)`: the messages of the edges whose scatter word is `v` — the table's gathered row
    scaled by the two gathered scales —, and the bias. -/
theorem ref_layer_at (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (hb0 : (⟨0, ![]⟩ : Shape).BroadcastsInDim ⟨2, ![N, C]⟩ (![] : Fin 0 → Fin (⟨2, ![N, C]⟩ : Shape).rank))
    (hbE1 : (⟨1, ![E]⟩ : Shape).BroadcastsInDim ⟨2, ![E, 1]⟩ (![0] : Fin 1 → Fin (⟨2, ![E, 1]⟩ : Shape).rank))
    (hbEC : (⟨2, ![E, 1]⟩ : Shape).BroadcastsInDim ⟨2, ![E, C]⟩ (![0, 1] : Fin 2 → Fin (⟨2, ![E, C]⟩ : Shape).rank))
    (hbC1 : (⟨1, ![C]⟩ : Shape).BroadcastsInDim ⟨2, ![1, C]⟩ (![1] : Fin 1 → Fin (⟨2, ![1, C]⟩ : Shape).rank))
    (hb1C : (⟨2, ![1, C]⟩ : Shape).BroadcastsInDim ⟨2, ![N, C]⟩ (![0, 1] : Fin 2 → Fin (⟨2, ![N, C]⟩ : Shape).rank))
    (h : FVec Ideal ⟨2, ![N, C]⟩ .f32) (dv : FVec Ideal ⟨1, ![N]⟩ .f32) (iS iGr iGs iGd : IVec ⟨2, ![E, 1]⟩ 32)
    (b : FVec Ideal ⟨1, ![C]⟩ .f32) (v : Fin N) (k : Fin C) :
    addf
      (Host.scatterAdd (LibSegmentScatter.rowScatterDims N E C wfS)
        (broadcastInDim ⟨2, ![N, C]⟩ ![] hb0 (constant ⟨0, ![]⟩ .f32 0x00000000#32))
        iS
        (mulf (Host.gather (LibSegmentScatter.rowGatherDims N E C wfG) h iGr)
          (broadcastInDim ⟨2, ![E, C]⟩ ![0, 1] hbEC
            (broadcastInDim ⟨2, ![E, 1]⟩ ![0] hbE1
              (mulf (Host.gather (LibSegmentScatter.entryGatherDims N E wfg) dv iGs)
                (Host.gather (LibSegmentScatter.entryGatherDims N E wfg) dv iGd))))))
      (broadcastInDim ⟨2, ![N, C]⟩ ![0, 1] hb1C (broadcastInDim ⟨2, ![1, C]⟩ ![1] hbC1 b)) (ix2 v k)
    = (∑ e : Fin E, if (iS (ix2 e 0)).toInt = (v.val : ℤ) then
          h (ix2 (Gcn.row hN (iGr (ix2 e 0))) k)
            * (dv (ix1 (Gcn.row hN (iGs (ix2 e 0)))) * dv (ix1 (Gcn.row hN (iGd (ix2 e 0))))) else 0)
        + b (ix1 k) := by
  rw [addf_apply, bcast_row_apply, scatterAdd_rows_zero_apply]
  refine congrArg₂ (· + ·) (Finset.sum_congr rfl fun e _ => ?_) rfl
  rw [mulf_apply, bcast_col_apply, mulf_apply, LibSegmentScatter.gather_rows_apply hN wfG,
    LibSegmentScatter.gather_entries_apply hN wfg, LibSegmentScatter.gather_entries_apply hN wfg]
  rfl

end Cert.RefLayer

end
-- ==== Proof.RefValue.lean ====
import proofs.«121461_j37426345017679_1_alg».proof.Proof.RefRead
import proofs.«121461_j37426345017679_1_alg».proof.Proof.GcnSpec
import proofs.«121461_j37426345017679_1_alg».proof.Proof.LibSegmentScatter
import proofs.«121461_j37426345017679_1_alg».proof.Proof.RefLayer
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.ReadP Idealize.ShloMosaic Idealize.ShloMosaic.ValueIdx
open Cert.ReferenceIdeal.Gen
open scoped BigOperators

/-! ## The edge words -/

/-- The source word of edge `e`: row 0 of the edge table. -/
theorem v1_apply (x1 : IVec S2x6400000 32) (e : Fin 6400000) :
    val_main_v1 (F := Ideal) x1 (ix1 e) = x1 (ix2 0 e) := by
  rw [val_main_v1_apply, val_main_v0_apply]
  congr 1
  funext a
  refine Fin.ext ?_
  match a with
  | ⟨0, _⟩ => rfl
  | ⟨1, _⟩ => exact Nat.mod_eq_of_lt e.isLt

/-- The destination word of edge `e`: row 1 of the edge table. -/
theorem v3_apply (x1 : IVec S2x6400000 32) (e : Fin 6400000) :
    val_main_v3 (F := Ideal) x1 (ix1 e) = x1 (ix2 1 e) := by
  rw [val_main_v3_apply, val_main_v2_apply]
  congr 1
  funext a
  refine Fin.ext ?_
  match a with
  | ⟨0, _⟩ => rfl
  | ⟨1, _⟩ => exact Nat.mod_eq_of_lt e.isLt

/-- An edge list with the node numbers appended, read at `e'`: the edge's word, or the loop's node number. -/
theorem cat_apply (a : S6400000.Idx → BitVec 32) (e' : Fin 6600000) :
    concatenate S6600000 0 [⟨S6400000, a⟩, ⟨S200000, (iotaInDim S200000 32 0 : S200000.Idx → BitVec 32)⟩]
        concatenates_S6400000_S200000_S6600000_d0 (ix1 e')
      = Gcn.catw 6400000 (fun e : Fin 6400000 => a (ix1 e)) e' := by
  unfold Gcn.catw
  by_cases h : e'.val < 6400000
  · rw [dif_pos h]
    exact concatenate_pair_apply_left (t := S6600000) (s₁ := S6400000) (s₂ := S200000) 0 a
      (iotaInDim S200000 32 0 : S200000.Idx → BitVec 32) concatenates_S6400000_S200000_S6600000_d0 (ix1 e') rfl
      (ix1 ⟨e'.val, h⟩) (fun b => match b with | ⟨0, _⟩ => rfl)
  · rw [dif_neg h]
    have hlt : e'.val - 6400000 < 200000 := by have := e'.isLt; omega
    have hr := concatenate_pair_apply_right (t := S6600000) (s₁ := S6400000) (s₂ := S200000) 0 a
      (iotaInDim S200000 32 0 : S200000.Idx → BitVec 32) concatenates_S6400000_S200000_S6600000_d0 (ix1 e') rfl rfl
      (ix1 ⟨e'.val - 6400000, hlt⟩) (fun b hb => (hb (Fin.ext (Nat.lt_one_iff.mp b.isLt))).elim)
      (by show e'.val - 6400000 + 6400000 = e'.val; omega)
    exact hr.trans rfl

/-- The source words with the loops appended. -/
theorem v6_apply (x1 : IVec S2x6400000 32) (e' : Fin 6600000) :
    val_main_v6 (F := Ideal) x1 (ix1 e') = Gcn.catw 6400000 (fun e : Fin 6400000 => x1 (ix2 0 e)) e' := by
  unfold val_main_v6
  refine (cat_apply _ e').trans ?_
  congr 1
  funext e
  exact v1_apply x1 e

/-- The destination words with the loops appended. -/
theorem v7_apply (x1 : IVec S2x6400000 32) (e' : Fin 6600000) :
    val_main_v7 (F := Ideal) x1 (ix1 e') = Gcn.catw 6400000 (fun e : Fin 6400000 => x1 (ix2 1 e)) e' := by
  unfold val_main_v7
  refine (cat_apply _ e').trans ?_
  congr 1
  funext e
  exact v3_apply x1 e

/-! ## The column of destination words -/

/-- The column of destination words the scatters read. -/
theorem v10_apply (x1 : IVec S2x6400000 32) (e' : Fin 6600000) :
    val_main_v10 (F := Ideal) x1 (ix2 e' 0) = Gcn.catw 6400000 (fun e : Fin 6400000 => x1 (ix2 1 e)) e' := by
  rw [val_main_v10_apply]
  exact (congrArg _ (eq_ix1 _)).trans (v7_apply x1 _)

/-! ## The normalised words -/

/-- jnp's normalisation of an index word, as the program spells it: a compare, an add and a select. -/
theorem nrm_word (w z n : BitVec 32) (hz : z = 0#32) (hn : n = 200000#32) :
    Scalar.select (IntOp.cmpi .slt w z) (IntOp.addi w n) w = Gcn.nrm 200000 w := by
  subst hz hn
  rfl

theorem v20_apply (x1 : IVec S2x6400000 32) (e' : Fin 6600000) :
    val_main_v20 (F := Ideal) x1 (ix1 e')
      = Gcn.nrm 200000 (Gcn.catw 6400000 (fun e : Fin 6400000 => x1 (ix2 0 e)) e') := by
  rw [val_main_v20_apply, val_main_v17_apply, val_main_v19_apply, v6_apply]
  exact nrm_word _ _ _ (by rw [val_main_v16_apply, val_main_c_apply]) (by rw [val_main_v18_apply, val_main_c_3_apply])

theorem v21_apply (x1 : IVec S2x6400000 32) (e' : Fin 6600000) :
    val_main_v21 (F := Ideal) x1 (ix2 e' 0)
      = Gcn.nrm 200000 (Gcn.catw 6400000 (fun e : Fin 6400000 => x1 (ix2 0 e)) e') := by
  rw [val_main_v21_apply]
  exact (congrArg _ (eq_ix1 _)).trans (v20_apply x1 _)

theorem v27_apply (x1 : IVec S2x6400000 32) (e' : Fin 6600000) :
    val_main_v27 (F := Ideal) x1 (ix1 e')
      = Gcn.nrm 200000 (Gcn.catw 6400000 (fun e : Fin 6400000 => x1 (ix2 1 e)) e') := by
  rw [val_main_v27_apply, val_main_v24_apply, val_main_v26_apply, v7_apply]
  exact nrm_word _ _ _ (by rw [val_main_v23_apply, val_main_c_4_apply]) (by rw [val_main_v25_apply, val_main_c_5_apply])

theorem v28_apply (x1 : IVec S2x6400000 32) (e' : Fin 6600000) :
    val_main_v28 (F := Ideal) x1 (ix2 e' 0)
      = Gcn.nrm 200000 (Gcn.catw 6400000 (fun e : Fin 6400000 => x1 (ix2 1 e)) e') := by
  rw [val_main_v28_apply]
  exact (congrArg _ (eq_ix1 _)).trans (v27_apply x1 _)

theorem v35_apply (x1 : IVec S2x6400000 32) (e' : Fin 6600000) :
    val_main_v35 (F := Ideal) x1 (ix1 e')
      = Gcn.nrm 200000 (Gcn.catw 6400000 (fun e : Fin 6400000 => x1 (ix2 0 e)) e') := by
  rw [val_main_v35_apply, val_main_v32_apply, val_main_v34_apply, v6_apply]
  exact nrm_word _ _ _ (by rw [val_main_v31_apply, val_main_c_6_apply]) (by rw [val_main_v33_apply, val_main_c_7_apply])

theorem v36_apply (x1 : IVec S2x6400000 32) (e' : Fin 6600000) :
    val_main_v36 (F := Ideal) x1 (ix2 e' 0)
      = Gcn.nrm 200000 (Gcn.catw 6400000 (fun e : Fin 6400000 => x1 (ix2 0 e)) e') := by
  rw [val_main_v36_apply]
  exact (congrArg _ (eq_ix1 _)).trans (v35_apply x1 _)

theorem v42_apply (x1 : IVec S2x6400000 32) (e' : Fin 6600000) :
    val_main_v42 (F := Ideal) x1 (ix2 e' 0) = Gcn.catw 6400000 (fun e : Fin 6400000 => x1 (ix2 1 e)) e' := by
  rw [val_main_v42_apply]
  exact (congrArg _ (eq_ix1 _)).trans (v7_apply x1 _)

/-! ## The matrix products, the biases and the relu -/

/-- The first matrix product, entry by entry. -/
theorem v4_apply (x0 : FVec Ideal S200000x128 .f32) (x2 : FVec Ideal S128x16 .f32) (r : Fin 200000) (j : Fin 16) :
    val_main_v4 (F := Ideal) x0 x2 (ix2 r j)
      = Gcn.mm (fun (v : Fin 200000) (i : Fin 128) => x0 (ix2 v i)) (fun (i : Fin 128) (k : Fin 16) => x2 (ix2 i k)) r j := by
  rw [val_main_v4_apply]
  unfold Gcn.mm
  refine Finset.sum_congr rfl fun k _ => ?_
  have hl : lidx_main_v4 (ix2 r j) k = ix2 r k := by
    funext a
    refine Fin.ext ?_
    match a with
    | ⟨0, _⟩ => rfl
    | ⟨1, _⟩ => rfl
  have hr : ridx_main_v4 (ix2 r j) k = ix2 k j := by
    funext a
    refine Fin.ext ?_
    match a with
    | ⟨0, _⟩ => rfl
    | ⟨1, _⟩ => rfl
  rw [hl, hr]

/-- The second matrix product, entry by entry, over the first layer's activations. -/
theorem v48_apply (x0 : FVec Ideal S200000x128 .f32) (x1 : IVec S2x6400000 32) (x2 : FVec Ideal S128x16 .f32)
    (x3 : FVec Ideal S16 .f32) (x4 : FVec Ideal S16x2 .f32) (r : Fin 200000) (k : Fin 2) :
    val_main_v48 (F := Ideal) x0 x1 x2 x3 x4 (ix2 r k)
      = Gcn.mm (fun (v : Fin 200000) (j : Fin 16) => val_main_v47 (F := Ideal) x0 x1 x2 x3 (ix2 v j))
          (fun (j : Fin 16) (k : Fin 2) => x4 (ix2 j k)) r k := by
  rw [val_main_v48_apply]
  unfold Gcn.mm
  refine Finset.sum_congr rfl fun j _ => ?_
  have hl : lidx_main_v48 (ix2 r k) j = ix2 r j := by
    funext a
    refine Fin.ext ?_
    match a with
    | ⟨0, _⟩ => rfl
    | ⟨1, _⟩ => rfl
  have hr : ridx_main_v48 (ix2 r k) j = ix2 j k := by
    funext a
    refine Fin.ext ?_
    match a with
    | ⟨0, _⟩ => rfl
    | ⟨1, _⟩ => rfl
  rw [hl, hr]

/-- The first bias, broadcast over the nodes. -/
theorem v45_apply (x3 : FVec Ideal S16 .f32) (v : Fin 200000) (j : Fin 16) :
    val_main_v45 (F := Ideal) x3 (ix2 v j) = x3 (ix1 j) := by
  rw [val_main_v45_apply, val_main_v44_apply]
  exact congrArg x3 (eq_ix1 _)

/-- The second bias, broadcast over the nodes. -/
theorem v89_apply (x5 : FVec Ideal S2 .f32) (v : Fin 200000) (k : Fin 2) :
    val_main_v89 (F := Ideal) x5 (ix2 v k) = x5 (ix1 k) := by
  rw [val_main_v89_apply, val_main_v88_apply]
  exact congrArg x5 (eq_ix1 _)

/-- The relu is the maximum with a splat of zeros. -/
theorem v47_apply (x0 : FVec Ideal S200000x128 .f32) (x1 : IVec S2x6400000 32) (x2 : FVec Ideal S128x16 .f32)
    (x3 : FVec Ideal S16 .f32) (v : Fin 200000) (j : Fin 16) :
    val_main_v47 (F := Ideal) x0 x1 x2 x3 (ix2 v j) = Gcn.relu (val_main_v46 (F := Ideal) x0 x1 x2 x3 (ix2 v j)) := by
  rw [val_main_v47_apply, val_main_call1_v0_apply, val_main_call1_cst_apply]
  exact congrArg (max (val_main_v46 (F := Ideal) x0 x1 x2 x3 (ix2 v j))) Ideal.ofBits_zero_f32

/-! ## The degree's inverse square root -/

/-- The guarded inverse square root of the count, spelt over the entry scatter of ones. -/
theorem v15_eq (x1 : IVec S2x6400000 32) :
    val_main_v15 (F := Ideal) x1
      = select
          (cmpf .ogt
            (Host.scatterAdd (Cert.LibSegmentScatter.entryScatterDims 200000 6600000 scatter_S200000_S6600000x1_S6600000_n_0_0_1_wf)
              (broadcastInDim ⟨1, ![200000]⟩ ![] bcast_S_S200000 (constant (F := Ideal) ⟨0, ![]⟩ .f32 0x00000000#32))
              (val_main_v10 (F := Ideal) x1)
              (broadcastInDim ⟨1, ![6600000]⟩ ![] bcast_S_S6600000 (constant (F := Ideal) ⟨0, ![]⟩ .f32 0x3F800000#32)))
            (broadcastInDim ⟨1, ![200000]⟩ ![] bcast_S_S200000 (constant (F := Ideal) ⟨0, ![]⟩ .f32 0x00000000#32)))
          (Host.rsqrt
            (Host.scatterAdd (Cert.LibSegmentScatter.entryScatterDims 200000 6600000 scatter_S200000_S6600000x1_S6600000_n_0_0_1_wf)
              (broadcastInDim ⟨1, ![200000]⟩ ![] bcast_S_S200000 (constant (F := Ideal) ⟨0, ![]⟩ .f32 0x00000000#32))
              (val_main_v10 (F := Ideal) x1)
              (broadcastInDim ⟨1, ![6600000]⟩ ![] bcast_S_S6600000 (constant (F := Ideal) ⟨0, ![]⟩ .f32 0x3F800000#32))))
          (broadcastInDim ⟨1, ![200000]⟩ ![] bcast_S_S200000 (constant (F := Ideal) ⟨0, ![]⟩ .f32 0x00000000#32)) := rfl

/-- Counting the destination words with the loops appended gives the degree. -/
theorem cnt_r (x1 : IVec S2x6400000 32) (v : Fin 200000) :
    (∑ e : Fin 6600000, if (val_main_v10 (F := Ideal) x1 (ix2 e 0)).toInt = (v.val : ℤ) then (1 : EReal) else 0)
      = Gcn.deg (fun e : Fin 6400000 => x1 (ix2 1 e)) v :=
  (Finset.sum_congr rfl fun e' _ => by rw [v10_apply]).trans
    (Gcn.cnt_ref (N := 200000) (E := 6400000) (M := 6600000) (by norm_num) (by norm_num)
      (fun e : Fin 6400000 => x1 (ix2 1 e)) v)

/-- The reference's scale at node `v` is the inverse square root of the degree. -/
theorem dinv_r (x1 : IVec S2x6400000 32) (v : Fin 200000) :
    val_main_v15 (F := Ideal) x1 (ix1 v) = Gcn.dinv (fun e : Fin 6400000 => x1 (ix2 1 e)) v := by
  have hpos : 0 < ∑ e : Fin 6600000,
      if (val_main_v10 (F := Ideal) x1 (ix2 e 0)).toInt = (v.val : ℤ) then (1 : EReal) else 0 := by
    rw [cnt_r]
    exact Gcn.deg_pos _ v
  refine ((congrFun (v15_eq x1) (ix1 v)).trans
    (Cert.RefLayer.ref_dinv_at _ _ _ _ _ (val_main_v10 (F := Ideal) x1) v hpos)).trans ?_
  rw [cnt_r]
  rfl

/-! ## The first layer -/

/-- The first layer's stretch, spelt over the row scatter and the gathers. -/
theorem v46_eq (x0 : FVec Ideal S200000x128 .f32) (x1 : IVec S2x6400000 32) (x2 : FVec Ideal S128x16 .f32)
    (x3 : FVec Ideal S16 .f32) :
    val_main_v46 (F := Ideal) x0 x1 x2 x3
      = addf
          (Host.scatterAdd (Cert.LibSegmentScatter.rowScatterDims 200000 6600000 16 scatter_S200000x16_S6600000x1_S6600000x16_1_0_0_1_wf)
            (broadcastInDim ⟨2, ![200000, 16]⟩ ![] bcast_S_S200000x16 (constant (F := Ideal) ⟨0, ![]⟩ .f32 0x00000000#32))
            (val_main_v42 (F := Ideal) x1)
            (mulf
              (Host.gather (Cert.LibSegmentScatter.rowGatherDims 200000 6600000 16 gather_S200000x16_S6600000x1_S6600000x16_1_0_n_n_0_1_116_wf)
                (val_main_v4 (F := Ideal) x0 x2) (val_main_v36 (F := Ideal) x1))
              (broadcastInDim ⟨2, ![6600000, 16]⟩ ![0, 1] bcast_S6600000x1_S6600000x16_0_1
                (broadcastInDim ⟨2, ![6600000, 1]⟩ ![0] bcast_S6600000_S6600000x1_0
                  (mulf
                    (Host.gather (Cert.LibSegmentScatter.entryGatherDims 200000 6600000 gather_S200000_S6600000x1_S6600000_n_0_n_n_0_1_1_wf)
                      (val_main_v15 (F := Ideal) x1) (val_main_v21 (F := Ideal) x1))
                    (Host.gather (Cert.LibSegmentScatter.entryGatherDims 200000 6600000 gather_S200000_S6600000x1_S6600000_n_0_n_n_0_1_1_wf)
                      (val_main_v15 (F := Ideal) x1) (val_main_v28 (F := Ideal) x1)))))))
          (broadcastInDim ⟨2, ![200000, 16]⟩ ![0, 1] bcast_S1x16_S200000x16_0_1
            (broadcastInDim ⟨2, ![1, 16]⟩ ![1] bcast_S16_S1x16_1 x3)) := rfl

/-- The first layer of the reference is the specification's layer over the first matrix product. -/
theorem layer1_r (x0 : FVec Ideal S200000x128 .f32) (x1 : IVec S2x6400000 32) (x2 : FVec Ideal S128x16 .f32)
    (x3 : FVec Ideal S16 .f32) (v : Fin 200000) (j : Fin 16) :
    val_main_v46 (F := Ideal) x0 x1 x2 x3 (ix2 v j)
      = Gcn.layer (N := 200000) (by decide) (fun e : Fin 6400000 => x1 (ix2 0 e)) (fun e : Fin 6400000 => x1 (ix2 1 e))
          (Gcn.mm (fun (v : Fin 200000) (i : Fin 128) => x0 (ix2 v i)) (fun (i : Fin 128) (k : Fin 16) => x2 (ix2 i k)))
          (fun k : Fin 16 => x3 (ix1 k)) v j := by
  refine ((congrFun (v46_eq x0 x1 x2 x3) (ix2 v j)).trans
    (Cert.RefLayer.ref_layer_at (N := 200000) (E := 6600000) (C := 16) (by decide) _ _ _ _ _ _ _ _
      (val_main_v4 (F := Ideal) x0 x2) (val_main_v15 (F := Ideal) x1) (val_main_v42 (F := Ideal) x1)
      (val_main_v36 (F := Ideal) x1) (val_main_v21 (F := Ideal) x1) (val_main_v28 (F := Ideal) x1) x3 v j)).trans ?_
  refine (congrArg₂ (· + ·) (Finset.sum_congr rfl fun e' _ => ?_) rfl).trans
    (Gcn.layer_ref (N := 200000) (E := 6400000) (M := 6600000) (by norm_num) (by norm_num) (by decide)
      (fun e : Fin 6400000 => x1 (ix2 0 e)) (fun e : Fin 6400000 => x1 (ix2 1 e))
      (Gcn.mm (fun (v : Fin 200000) (i : Fin 128) => x0 (ix2 v i)) (fun (i : Fin 128) (k : Fin 16) => x2 (ix2 i k)))
      (fun k : Fin 16 => x3 (ix1 k)) v j)
  rw [v42_apply, v36_apply, v21_apply, v28_apply, dinv_r, dinv_r, v4_apply]

/-! ## The second layer -/

/-- The second matrix product is the specification's, over the relu of the first layer. -/
theorem h2_r (x0 : FVec Ideal S200000x128 .f32) (x1 : IVec S2x6400000 32) (x2 : FVec Ideal S128x16 .f32)
    (x3 : FVec Ideal S16 .f32) (x4 : FVec Ideal S16x2 .f32) (r : Fin 200000) (k : Fin 2) :
    val_main_v48 (F := Ideal) x0 x1 x2 x3 x4 (ix2 r k)
      = Gcn.mm (fun (v : Fin 200000) (j : Fin 16) =>
            Gcn.relu (Gcn.layer (N := 200000) (by decide) (fun e : Fin 6400000 => x1 (ix2 0 e))
              (fun e : Fin 6400000 => x1 (ix2 1 e))
              (Gcn.mm (fun (v : Fin 200000) (i : Fin 128) => x0 (ix2 v i)) (fun (i : Fin 128) (k : Fin 16) => x2 (ix2 i k)))
              (fun k : Fin 16 => x3 (ix1 k)) v j))
          (fun (j : Fin 16) (k : Fin 2) => x4 (ix2 j k)) r k := by
  rw [v48_apply]
  exact congrArg (fun H : Fin 200000 → Fin 16 → EReal => Gcn.mm H (fun (j : Fin 16) (k : Fin 2) => x4 (ix2 j k)) r k)
    (funext fun v => funext fun j => (v47_apply x0 x1 x2 x3 v j).trans (congrArg Gcn.relu (layer1_r x0 x1 x2 x3 v j)))

/-- The second layer's stretch, spelt over the row scatter and the gathers; its words, its degree and its scales are
    the first layer's terms again. -/
theorem v90_eq (x0 : FVec Ideal S200000x128 .f32) (x1 : IVec S2x6400000 32) (x2 : FVec Ideal S128x16 .f32)
    (x3 : FVec Ideal S16 .f32) (x4 : FVec Ideal S16x2 .f32) (x5 : FVec Ideal S2 .f32) :
    val_main_v90 (F := Ideal) x0 x1 x2 x3 x4 x5
      = addf
          (Host.scatterAdd (Cert.LibSegmentScatter.rowScatterDims 200000 6600000 2 scatter_S200000x2_S6600000x1_S6600000x2_1_0_0_1_wf)
            (broadcastInDim ⟨2, ![200000, 2]⟩ ![] bcast_S_S200000x2 (constant (F := Ideal) ⟨0, ![]⟩ .f32 0x00000000#32))
            (val_main_v42 (F := Ideal) x1)
            (mulf
              (Host.gather (Cert.LibSegmentScatter.rowGatherDims 200000 6600000 2 gather_S200000x2_S6600000x1_S6600000x2_1_0_n_n_0_1_12_wf)
                (val_main_v48 (F := Ideal) x0 x1 x2 x3 x4) (val_main_v36 (F := Ideal) x1))
              (broadcastInDim ⟨2, ![6600000, 2]⟩ ![0, 1] bcast_S6600000x1_S6600000x2_0_1
                (broadcastInDim ⟨2, ![6600000, 1]⟩ ![0] bcast_S6600000_S6600000x1_0
                  (mulf
                    (Host.gather (Cert.LibSegmentScatter.entryGatherDims 200000 6600000 gather_S200000_S6600000x1_S6600000_n_0_n_n_0_1_1_wf)
                      (val_main_v15 (F := Ideal) x1) (val_main_v21 (F := Ideal) x1))
                    (Host.gather (Cert.LibSegmentScatter.entryGatherDims 200000 6600000 gather_S200000_S6600000x1_S6600000_n_0_n_n_0_1_1_wf)
                      (val_main_v15 (F := Ideal) x1) (val_main_v28 (F := Ideal) x1)))))))
          (broadcastInDim ⟨2, ![200000, 2]⟩ ![0, 1] bcast_S1x2_S200000x2_0_1
            (broadcastInDim ⟨2, ![1, 2]⟩ ![1] bcast_S2_S1x2_1 x5)) := rfl

/-- The reference's result at node `v`, column `k`, is the specification's two-layer network of the argument arrays. -/
theorem value (x0 : FVec Ideal S200000x128 .f32) (x1 : IVec S2x6400000 32) (x2 : FVec Ideal S128x16 .f32)
    (x3 : FVec Ideal S16 .f32) (x4 : FVec Ideal S16x2 .f32) (x5 : FVec Ideal S2 .f32) (v : Fin 200000) (k : Fin 2) :
    val_main_v90 (F := Ideal) x0 x1 x2 x3 x4 x5 (ix2 v k)
      = Gcn.out (N := 200000) (by decide) (fun e : Fin 6400000 => x1 (ix2 0 e)) (fun e : Fin 6400000 => x1 (ix2 1 e))
          (fun v j => x0 (ix2 v j)) (fun j k => x2 (ix2 j k)) (fun k => x3 (ix1 k))
          (fun j k => x4 (ix2 j k)) (fun k => x5 (ix1 k)) v k := by
  unfold Gcn.out
  refine ((congrFun (v90_eq x0 x1 x2 x3 x4 x5) (ix2 v k)).trans
    (Cert.RefLayer.ref_layer_at (N := 200000) (E := 6600000) (C := 2) (by decide) _ _ _ _ _ _ _ _
      (val_main_v48 (F := Ideal) x0 x1 x2 x3 x4) (val_main_v15 (F := Ideal) x1) (val_main_v42 (F := Ideal) x1)
      (val_main_v36 (F := Ideal) x1) (val_main_v21 (F := Ideal) x1) (val_main_v28 (F := Ideal) x1) x5 v k)).trans ?_
  refine (congrArg₂ (· + ·) (Finset.sum_congr rfl fun e' _ => ?_) rfl).trans
    (Gcn.layer_ref (N := 200000) (E := 6400000) (M := 6600000) (by norm_num) (by norm_num) (by decide)
      (fun e : Fin 6400000 => x1 (ix2 0 e)) (fun e : Fin 6400000 => x1 (ix2 1 e)) _
      (fun k : Fin 2 => x5 (ix1 k)) v k)
  rw [v42_apply, v36_apply, v21_apply, v28_apply, dinv_r, dinv_r, h2_r]

end Cert.ReferenceIdeal.RefValue

end
-- ==== Proof.lean ====
/- The proof of `Cert.Claim` (proofs.«121461_j37426345017679_1_alg».proof.Defs): a two-layer graph convolution whose two matrix
   products are Pallas kernels, against its jnp reference, over the extended reals.

   Both programs compute, for every node `v` and column `k`,
     layer(h)[v, k] = Σ_{edges e ending at v} h[src e, k] · dinv[src e] · dinv[dst e]  +  h[v, k] · dinv[v]²  +  b[k],
   with `dinv = deg^(-1/2)` and `deg[v] = #{edges ending at v} + 1`, composed as layer₂ (relu (layer₁ (x · W1)) · W2)
   (`Cert.Gcn.out`, Proof/GcnSpec.lean). The kernel's program adds the node's own term separately and counts the
   degree with one scatter-add plus one; the reference appends the loops `i → i` to the edge list and sums over the
   `E + N` edges at once. The two are one value because a sum over the edges with the loops appended is the edges' sum
   plus the loops' sum, and of the loops only `v`'s own ends at `v` — addition on the extended reals is commutative and
   associative, so no finiteness is used. The reference guards `deg > 0` before the inverse square root; a degree
   is a count plus one, so the guard never fires. The matrix products agree entry by entry: the kernels round their
   operands to bf16, which is the identity at the ideal instance, and accumulate into zero.
   The one thing the two programs do differently with a NEGATIVE destination word is the degree count (the kernel's
   `.at[dst].add` counts it from the end, the reference's `segment_sum` drops it), so the precondition asks that
   every destination word be non-negative (Proof/PreDecode.lean reads that off the printed predicate).

   The pieces: the kernel program's run with its result buffer named (Proof/KRun.lean) and that buffer read back
   through the program to a term of the arguments (Proof/KFolds.lean, over Proof/KRegions.lean for the two matrix
   products and Proof/KTerms.lean for the host stretches), read entry by entry (Proof/KValue.lean,
   Proof/KernelValue.lean); the reference's run (Proof/RefRun.lean) and its stages read entry by entry
   (Proof/RefRead.lean, Proof/RefValue.lean). The frames of the two kernel programs are the generated ones. -/
import proofs.«121461_j37426345017679_1_alg».proof.Defs
import proofs.«121461_j37426345017679_1_alg».proof.Proof.Gen.Kernel
import proofs.«121461_j37426345017679_1_alg».proof.Proof.Gen.Kernel.Skeleton
import proofs.«121461_j37426345017679_1_alg».proof.Proof.Gen.Kernel.Launch
import proofs.«121461_j37426345017679_1_alg».proof.Proof.Gen.Kernel.Points
import proofs.«121461_j37426345017679_1_alg».proof.Proof.Gen.Kernel.Frame
import proofs.«121461_j37426345017679_1_alg».proof.Proof.Gen.KernelIdeal
import proofs.«121461_j37426345017679_1_alg».proof.Proof.Gen.KernelIdeal.Skeleton
import proofs.«121461_j37426345017679_1_alg».proof.Proof.Gen.KernelIdeal.Launch
import proofs.«121461_j37426345017679_1_alg».proof.Proof.Gen.KernelIdeal.Points
import proofs.«121461_j37426345017679_1_alg».proof.Proof.Gen.KernelIdeal.Frame
import proofs.«121461_j37426345017679_1_alg».proof.Proof.Gen.ReferenceIdeal
import proofs.«121461_j37426345017679_1_alg».proof.Proof.Gen.Pre_finite_inputs
import proofs.«121461_j37426345017679_1_alg».proof.Proof.KRun
import proofs.«121461_j37426345017679_1_alg».proof.Proof.KernelValue
import proofs.«121461_j37426345017679_1_alg».proof.Proof.PreDecode
import proofs.«121461_j37426345017679_1_alg».proof.Proof.RefRun
import proofs.«121461_j37426345017679_1_alg».proof.Proof.RefRead
import proofs.«121461_j37426345017679_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and keeps its arguments: the generated frame. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments, under the precondition, the reference's result term is what the kernel
    program leaves in its result buffer: entry by entry both are the specification's network of the arguments. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Cert.ReferenceIdeal.ValueP.res_main_v90 m' c
      = Cert.KernelIdeal.Gen.W6 m ρ c (Proc.devRef .tc Cert.KernelIdeal.main_v90) := by
  rw [Cert.ReferenceIdeal.ReadP.val_main_v90_eq, (hagree c).1, (hagree c).2.1, (hagree c).2.2.1, (hagree c).2.2.2.1,
    (hagree c).2.2.2.2.1, (hagree c).2.2.2.2.2]
  refine funext fun (i : Cert.KernelIdeal.S200000x2.Idx) => ?_
  obtain ⟨v, k, rfl⟩ : ∃ (v : Fin 200000) (k : Fin 2), i = ix2 v k := ⟨i 0, i 1, eq_ix2 i⟩
  rw [Cert.ReferenceIdeal.RefValue.value]
  exact (Cert.KernelIdeal.KernelValue.value m ρ c
    (fun e => Cert.PreDecode.dst_nonneg _ _ _ _ _ _ (hpre c) e) v k).symm

/-- Both idealized programs run, and end with equal results and unchanged arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v90),
    Cert.KernelIdeal.GenP.run m ρ, ?_⟩
  exact (θ_run Cert.ReferenceIdeal.defs _ _).mono
    (fun _ h c => ⟨(h c).1.trans (result_eq m ρ m' hpre hagree c), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
